-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S500000x64 : Shape := ⟨2, ![500000, 64]⟩
abbrev S1000000x64 : Shape := ⟨2, ![1000000, 64]⟩
abbrev S1000000x3 : Shape := ⟨2, ![1000000, 3]⟩
abbrev S1000000 : Shape := ⟨1, ![1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_
  slices_S1000000x3_S1000000x1_0_1 : S1000000x3.Slices ![0, 1] S1000000x1
  shapeCasts_S1000000x1_S1000000 : S1000000x1.ShapeCasts S1000000

variable [Facts]

def fn_part4 {F : FTy → Type} [FloatOps F] (main_arg3 : IVec S1000000x3 32) (main_v67 : IVec S_ 1) : IVec S_ 1 :=
  let main_v68 : IVec S1000000x1 32 := (extractStridedSlice S1000000x1 ![0, 1] · slices_S1000000x3_S1000000x1_0_1) main_arg3
  let main_v69 : IVec S1000000 32 := shapeCast S1000000 main_v68 shapeCasts_S1000000x1_S1000000
  let main_c_26 : IVec S_ 32 := constantI S_ 32 0#32
  let main_v70 : IVec S1000000 32 := broadcastInDim S1000000 ![] bcast_S_S1000000 main_c_26
  let main_v71 : IVec S1000000 1 := cmpi .sge main_v69 main_v70
  let main_v72 : IVec S1000000x1 32 := (extractStridedSlice S1000000x1 ![0, 1] · slices_S1000000x3_S1000000x1_0_1) main_arg3
  let main_v73 : IVec S1000000 32 := shapeCast S1000000 main_v72 shapeCasts_S1000000x1_S1000000
  let main_c_27 : IVec S_ 32 := constantI S_ 32 100000#32
  let main_v74 : IVec S1000000 32 := broadcastInDim S1000000 ![] bcast_S_S1000000 main_c_27
  let main_v75 : IVec S1000000 1 := cmpi .slt main_v73 main_v74
  let main_v76 : IVec S1000000 1 := andi main_v71 main_v75
  let main_c_28 : IVec S_ 1 := constantI S_ 1 1#1
  let main_v77 : IVec S_ 1 := (fun x v => Host.reduce IntOp.andi x v reducesTo_S1000000_S_d0 h_S_) main_v76 main_c_28
  let main_v78 : IVec S_ 1 := andi main_v67 main_v77
  main_v78

def fn_part3 {F : FTy → Type} [FloatOps F] (main_arg3 : IVec S1000000x3 32) (main_arg4 : IVec S1000000 32) (main_arg5 : IVec S1000000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S1000000 32 := broadcastInDim S1000000 ![] bcast_S_S1000000 main_c_20
  let main_v55 : IVec S1000000 1 := cmpi .sge main_arg4 main_v54
  let main_c_21 : IVec S_ 32 := constantI S_ 32 500000#32
  let main_v56 : IVec S1000000 32 := broadcastInDim S1000000 ![] bcast_S_S1000000 main_c_21
  let main_v57 : IVec S1000000 1 := cmpi .slt main_arg4 main_v56
  let main_v58 : IVec S1000000 1 := andi main_v55 main_v57
  let main_c_22 : IVec S_ 1 := constantI S_ 1 1#1
  let main_v59 : IVec S_ 1 := (fun x v => Host.reduce IntOp.andi x v reducesTo_S1000000_S_d0 h_S_) main_v58 main_c_22
  let main_v60 : IVec S_ 1 := andi main_v53 main_v59
  let main_c_23 : IVec S_ 32 := constantI S_ 32 0#32
  let main_v61 : IVec S1000000 32 := broadcastInDim S1000000 ![] bcast_S_S1000000 main_c_23
  let main_v62 : IVec S1000000 1 := cmpi .sge main_arg5 main_v61
  let main_c_24 : IVec S_ 32 := constantI S_ 32 500000#32
  let main_v63 : IVec S1000000 32 := broadcastInDim S1000000 ![] bcast_S_S1000000 main_c_24
  let main_v64 : IVec S1000000 1 := cmpi .slt main_arg5 main_v63
  let main_v65 : IVec S1000000 1 := andi main_v62 main_v64
  let main_c_25 : IVec S_ 1 := constantI S_ 1 1#1
  let main_v66 : IVec S_ 1 := (fun x v => Host.reduce IntOp.andi x v reducesTo_S1000000_S_d0 h_S_) main_v65 main_c_25
  let main_v67 : IVec S_ 1 := andi main_v60 main_v66
  fn_part4 (F := F) main_arg3 main_v67

def fn_part2 {F : FTy → Type} [FloatOps F] (main_arg3 : IVec S1000000x3 32) (main_arg4 : IVec S1000000 32) (main_arg5 : IVec S1000000 32) (main_arg10 : FVec F S256x128 .f32) (main_arg11 : FVec F S128 .f32) (main_arg12 : FVec F S128x64 .f32) (main_arg13 : FVec F S64 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg3 main_arg4 main_arg5 main_v48 main_v49 main_v50

def fn_part1 {F : FTy → Type} [FloatOps F] (main_arg3 : IVec S1000000x3 32) (main_arg4 : IVec S1000000 32) (main_arg5 : IVec S1000000 32) (main_arg7 : FVec F S128 .f32) (main_arg8 : FVec F S128x64 .f32) (main_arg9 : FVec F S64 .f32) (main_arg10 : FVec F S256x128 .f32) (main_arg11 : FVec F S128 .f32) (main_arg12 : FVec F S128x64 .f32) (main_arg13 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg5 main_arg10 main_arg11 main_arg12 main_arg13 main_v33

def fn {F : FTy → Type} [FloatOps F] (main_arg0 : FVec F S100000x64 .f32) (main_arg1 : FVec F S500000x64 .f32) (main_arg2 : FVec F S1000000x64 .f32) (main_arg3 : IVec S1000000x3 32) (main_arg4 : IVec S1000000 32) (main_arg5 : IVec S1000000 32) (main_arg6 : FVec F S256x128 .f32) (main_arg7 : FVec F S128 .f32) (main_arg8 : FVec F S128x64 .f32) (main_arg9 : FVec F S64 .f32) (main_arg10 : FVec F S256x128 .f32) (main_arg11 : FVec F S128 .f32) (main_arg12 : FVec F S128x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S1000000x64 .f32 := Host.absf main_arg2
  let main_cst_2 : FVec F S_ .f32 := constant S_ .f32 0x7F800000#32
  let main_v10 : FVec F S1000000x64 .f32 := broadcastInDim S1000000x64 ![] bcast_S_S1000000x64 main_cst_2
  let main_v11 : IVec S1000000x64 1 := cmpf .olt main_v9 main_v10
  let main_c_3 : IVec S_ 1 := constantI S_ 1 1#1
  let main_v12 : IVec S_ 1 := (fun x v => Host.reduce IntOp.andi x v reducesTo_S1000000x64_S_d0_1 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg3 main_arg4 main_arg5 main_arg7 main_arg8 main_arg9 main_arg10 main_arg11 main_arg12 main_arg13 main_v13 main_v16
-- ==== Kernel.lean ====
abbrev S100000x64 : Shape := ⟨2, ![100000, 64]⟩
abbrev S500000x64 : Shape := ⟨2, ![500000, 64]⟩
abbrev S1000000x64 : Shape := ⟨2, ![1000000, 64]⟩
abbrev S1000000x3 : Shape := ⟨2, ![1000000, 3]⟩
abbrev S1000000 : Shape := ⟨1, ![1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1x128 : Shape := ⟨2, ![1, 128]⟩
abbrev S1x64 : Shape := ⟨2, ![1, 64]⟩
abbrev S8000x64 : Shape := ⟨2, ![8000, 64]⟩
abbrev S8000x256 : Shape := ⟨2, ![8000, 256]⟩
abbrev S8000x128 : Shape := ⟨2, ![8000, 128]⟩

abbrev nBuf : Space → Nat
  | .hbm => 94
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S500000x64, .f32⟩
  | .hbm, ⟨2, _⟩ => ⟨S1000000x64, .f32⟩
  | .hbm, ⟨3, _⟩ => ⟨S1000000x3, .i32⟩
  | .hbm, ⟨4, _⟩ => ⟨S1000000, .i32⟩
  | .hbm, ⟨5, _⟩ => ⟨S1000000, .i32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1, .i32⟩
  | .hbm, ⟨23, _⟩ => ⟨S_, .i32⟩
  | .hbm, ⟨24, _⟩ => ⟨S1000000x1, .i32⟩
  | .hbm, ⟨25, _⟩ => ⟨S1000000x1, .i1⟩
  | .hbm, ⟨26, _⟩ => ⟨S1x1, .i32⟩
  | .hbm, ⟨27, _⟩ => ⟨S1000000x1, .i32⟩
  | .hbm, ⟨28, _⟩ => ⟨S1000000x1, .i1⟩
  | .hbm, ⟨29, _⟩ => ⟨S1000000x1, .i1⟩
  | .hbm, ⟨30, _⟩ => ⟨S_, .i1⟩
  | .hbm, ⟨31, _⟩ => ⟨S1000000, .i1⟩
  | .hbm, ⟨32, _⟩ => ⟨S1000000x64, .f32⟩
  | .hbm, ⟨33, _⟩ => ⟨S1000000x64, .i1⟩
  | .hbm, ⟨34, _⟩ => ⟨S_, .f32⟩
  | .hbm, ⟨35, _⟩ => ⟨S1000000x64, .f32⟩
  | .hbm, ⟨36, _⟩ => ⟨S1000000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1, .i32⟩
  | .hbm, ⟨46, _⟩ => ⟨S_, .i32⟩
  | .hbm, ⟨47, _⟩ => ⟨S1000000x1, .i32⟩
  | .hbm, ⟨48, _⟩ => ⟨S1000000x1, .i1⟩
  | .hbm, ⟨49, _⟩ => ⟨S1x1, .i32⟩
  | .hbm, ⟨50, _⟩ => ⟨S1000000x1, .i32⟩
  | .hbm, ⟨51, _⟩ => ⟨S1000000x1, .i1⟩
  | .hbm, ⟨52, _⟩ => ⟨S1000000x1, .i1⟩
  | .hbm, ⟨53, _⟩ => ⟨S_, .i1⟩
  | .hbm, ⟨54, _⟩ => ⟨S1000000, .i1⟩
  | .hbm, ⟨55, _⟩ => ⟨S1000000x64, .f32⟩
  | .hbm, ⟨56, _⟩ => ⟨S1000000x64, .i1⟩
  | .hbm, ⟨57, _⟩ => ⟨S_, .f32⟩
  | .hbm, ⟨58, _⟩ => ⟨S1000000x64, .f32⟩
  | .hbm, ⟨59, _⟩ => ⟨S1000000x64, .f32⟩
  | .hbm, ⟨60, _⟩ => ⟨S1000000x1, .i32⟩
  | .hbm, ⟨61, _⟩ => ⟨S1000000, .i32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1, .i32⟩
  | .hbm, ⟨71, _⟩ => ⟨S_, .i32⟩
  | .hbm, ⟨72, _⟩ => ⟨S1000000x1, .i32⟩
  | .hbm, ⟨73, _⟩ => ⟨S1000000x1, .i1⟩
  | .hbm, ⟨74, _⟩ => ⟨S1x1, .i32⟩
  | .hbm, ⟨75, _⟩ => ⟨S1000000x1, .i32⟩
  | .hbm, ⟨76, _⟩ => ⟨S1000000x1, .i1⟩
  | .hbm, ⟨77, _⟩ => ⟨S1000000x1, .i1⟩
  | .hbm, ⟨78, _⟩ => ⟨S_, .i1⟩
  | .hbm, ⟨79, _⟩ => ⟨S1000000, .i1⟩
  | .hbm, ⟨80, _⟩ => ⟨S1000000x64, .f32⟩
  | .hbm, ⟨81, _⟩ => ⟨S1000000x64, .i1⟩
  | .hbm, ⟨82, _⟩ => ⟨S_, .f32⟩
  | .hbm, ⟨83, _⟩ => ⟨S1000000x64, .f32⟩
  | .hbm, ⟨84, _⟩ => ⟨S1000000x64, .f32⟩
  | .hbm, ⟨85, _⟩ => ⟨S256x128, .bf16⟩
  | .hbm, ⟨86, _⟩ => ⟨S128x64, .bf16⟩
  | .hbm, ⟨87, _⟩ => ⟨S256x128, .bf16⟩
  | .hbm, ⟨88, _⟩ => ⟨S128x64, .bf16⟩
  | .hbm, ⟨89, _⟩ => ⟨S1x128, .f32⟩
  | .hbm, ⟨90, _⟩ => ⟨S1x64, .f32⟩
  | .hbm, ⟨91, _⟩ => ⟨S1x128, .f32⟩
  | .hbm, ⟨92, _⟩ => ⟨S1x64, .f32⟩
  | .hbm, ⟨93, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S256x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S256x128, .bf16⟩
  | .local _ .vmem, ⟨13, _⟩ => ⟨S1x128, .f32⟩
  | .local _ .vmem, ⟨14, _⟩ => ⟨S128x64, .bf16⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v4 : Ref sig .tc := ⟨.hbm, 84, rfl⟩
abbrev main_v5 : Ref sig .tc := ⟨.hbm, 85, rfl⟩
abbrev main_v6 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S1000000x3_S1000000x1_0_1 : S1000000x3.Slices ![0, 1] S1000000x1
  shapeCasts_S1000000x1_S1000000 : S1000000x1.ShapeCasts S1000000
  bitsLt_bf16_f32 : FTy.bits .bf16 < FTy.bits .f32
  shapeCasts_S128_S1x128 : S128.ShapeCasts S1x128
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  concatenates_S8000x64_S8000x64_S8000x64_S8000x64_S8000x256_d1 : Shape.Concatenates [S8000x64, S8000x64, S8000x64, S8000x64] S8000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  gather_S500000x64_S1000000x1_S1000000x64_1_0_n_n_0_1_164_wf : GatherDims.WF S500000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S8000x256_S256x128_S8000x128_1_0_0_1_n_n_wf : DotDims.WF S8000x256 S256x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S1000000x64.size a
  hwx0_3 : ∀ i : grid0.Coords, EltTy.bits .f32 = 32 ∨ (Rect.block (s := S1000000x64) S8000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .bf16 = 32 ∨ (Rect.block (s := S128x64) S128x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8000x64.size a ≤ S1000000x64.size a
  hwx0_12 : ∀ i : grid0.Coords, EltTy.bits .f32 = 32 ∨ (Rect.block (s := S1000000x64) S8000x64.size (cc0_transform_12 i) (hinb0_12 i)).WholeWords (EltTy.packing .f32)

variable [Facts₀]

def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S8000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x64 : Shape := ⟨2, ![100000, 64]⟩
abbrev S500000x64 : Shape := ⟨2, ![500000, 64]⟩
abbrev S1000000x64 : Shape := ⟨2, ![1000000, 64]⟩
abbrev S1000000x3 : Shape := ⟨2, ![1000000, 3]⟩
abbrev S1000000 : Shape := ⟨1, ![1000000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x256 : Shape := ⟨2, ![1000000, 256]⟩
abbrev S1000000x128 : Shape := ⟨2, ![1000000, 128]⟩
abbrev S1x128 : Shape := ⟨2, ![1, 128]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S500000x64, .f32⟩
  | .hbm, ⟨2, _⟩ => ⟨S1000000x64, .f32⟩
  | .hbm, ⟨3, _⟩ => ⟨S1000000x3, .i32⟩
  | .hbm, ⟨4, _⟩ => ⟨S1000000, .i32⟩
  | .hbm, ⟨5, _⟩ => ⟨S1000000, .i32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S1000000x1, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S1000000x256, .f32⟩
  | .hbm, ⟨44, _⟩ => ⟨S1000000x128, .f32⟩
  | .hbm, ⟨45, _⟩ => ⟨S1x128, .f32⟩
  | .hbm, ⟨46, _⟩ => ⟨S1000000x128, .f32⟩
  | .hbm, ⟨47, _⟩ => ⟨S1000000x128, .f32⟩
  | .hbm, ⟨48, _⟩ => ⟨S_, .f32⟩
  | .hbm, ⟨49, _⟩ => ⟨S1000000x128, .f32⟩
  | .hbm, ⟨50, _⟩ => ⟨S1000000x128, .f32⟩
  | .hbm, ⟨51, _⟩ => ⟨S1000000x64, .f32⟩
  | .hbm, ⟨52, _⟩ => ⟨S1x64, .f32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S_, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S1000000x64, .f32⟩
  | .hbm, ⟨62, _⟩ => ⟨S1000000x64, .f32⟩
  | .hbm, ⟨63, _⟩ => ⟨S1000000x128, .f32⟩
  | .hbm, ⟨64, _⟩ => ⟨S1x128, .f32⟩
  | .hbm, ⟨65, _⟩ => ⟨S1000000x128, .f32⟩
  | .hbm, ⟨66, _⟩ => ⟨S1000000x128, .f32⟩
  | .hbm, ⟨67, _⟩ => ⟨S_, .f32⟩
  | .hbm, ⟨68, _⟩ => ⟨S1000000x128, .f32⟩
  | .hbm, ⟨69, _⟩ => ⟨S1000000x128, .f32⟩
  | .hbm, ⟨70, _⟩ => ⟨S1000000x64, .f32⟩
  | .hbm, ⟨71, _⟩ => ⟨S1x64, .f32⟩
  | .hbm, ⟨72, _⟩ => ⟨S1000000x64, .f32⟩
  | .hbm, ⟨73, _⟩ => ⟨S1000000x64, .f32⟩
  | .hbm, ⟨74, _⟩ => ⟨S1000000x64, .f32⟩
  | .hbm, ⟨75, _⟩ => ⟨S1000000x64, .f32⟩
  | .hbm, ⟨76, _⟩ => ⟨S_, .f32⟩
  | .hbm, ⟨77, _⟩ => ⟨S1000000x64, .f32⟩
  | .hbm, ⟨78, _⟩ => ⟨S1000000x64, .f32⟩
  | .hbm, ⟨79, _⟩ => ⟨S_, .f32⟩
  | .hbm, ⟨80, _⟩ => ⟨S1000000x64, .f32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S1000000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x3_S1000000x1_0_1 : S1000000x3.Slices ![0, 1] S1000000x1
  shapeCasts_S1000000x1_S1000000 : S1000000x1.ShapeCasts S1000000
  concatenates_S1000000x64_S1000000x64_S1000000x64_S1000000x64_S1000000x256_d1 : Shape.Concatenates [S1000000x64, S1000000x64, S1000000x64, S1000000x64] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  gather_S500000x64_S1000000x1_S1000000x64_1_0_n_n_0_1_164_wf : GatherDims.WF S500000x64 S1000000x1 S1000000x64 [1] [0] [] [0] [] 1 ![1, 64]
  gather_S100000x64_S1000000x1_S1000000x64_1_0_n_n_0_1_164_wf : GatherDims.WF S100000x64 S1000000x1 S1000000x64 [1] [0] [] [0] [] 1 ![1, 64]
  dot_S1000000x256_S256x128_S1000000x128_1_0_0_1_n_n_wf : DotDims.WF S1000000x256 S256x128 S1000000x128 [1] [0] [0] [1] [] []
  dot_S1000000x128_S128x64_S1000000x64_1_0_0_1_n_n_wf : DotDims.WF S1000000x128 S128x64 S1000000x64 [1] [0] [0] [1] [] []

variable [Facts₀]

def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.Spec.lean ====
/-
  The angle update, as mathematics.

  Every angle row r carries a feature row of 256 entries: the bond row its source edge names, the bond row its
  destination edge names, its own 64 angle features, and the atom row its vertex names, side by side. Two small
  networks read that row: each is an affine map to 128 hidden units, a cut at zero, and an affine map to 64 outputs.
  The first network's outputs g go through the logistic function and act as a gate; the second network's outputs o
  are multiplied by their own logistic value. The updated angle feature is

      a + (o * logistic o) * logistic g,

  column by column. Over the extended reals a finite sum does not depend on the order of its terms, and a change of
  float format is the identity, so a program that forms these sums 8000 rows at a time and one that forms them for
  all rows at once state the same numbers.
-/
import Idealize.ShloMosaic.PureOps.Ideal
import Idealize.ShloMosaic.Lib.ValueIdx

noncomputable section

open scoped BigOperators

namespace Cert.AngleSpec

open Idealize.ShloMosaic Idealize.ShloMosaic.ValueIdx

/-- The zero the hidden layer is cut at, as the float word both programs write. -/
abbrev zeroWord : EReal := Ideal.ofBits .f32 0x00000000#32

/-- Four rows of 64 entries laid side by side: entry k comes from the k / 64-th row, at k % 64. -/
def catRow (s d a v : Fin 64 → EReal) (k : Fin 256) : EReal :=
  if h1 : k.val < 64 then s ⟨k.val, h1⟩
  else if h2 : k.val < 128 then d ⟨k.val - 64, by omega⟩
  else if h3 : k.val < 192 then a ⟨k.val - 128, by omega⟩
  else v ⟨k.val - 192, by omega⟩

/-- Hidden unit h of a network: the affine map of the feature row, cut at zero. -/
def hidden (x : Fin 256 → EReal) (W : Fin 256 → Fin 128 → EReal) (b : Fin 128 → EReal) (h : Fin 128) : EReal :=
  max ((∑ k : Fin 256, x k * W k h) + b h) zeroWord

/-- Output j of a network: the affine map of its hidden units. -/
def logit (x : Fin 256 → EReal) (W1 : Fin 256 → Fin 128 → EReal) (b1 : Fin 128 → EReal)
    (W2 : Fin 128 → Fin 64 → EReal) (b2 : Fin 64 → EReal) (j : Fin 64) : EReal :=
  (∑ h : Fin 128, hidden x W1 b1 h * W2 h j) + b2 j

/-- The updated feature in column j of a row with feature row x and old feature a. -/
def rowOut (x : Fin 256 → EReal) (a : EReal)
    (gW1 : Fin 256 → Fin 128 → EReal) (gb1 : Fin 128 → EReal) (gW2 : Fin 128 → Fin 64 → EReal) (gb2 : Fin 64 → EReal)
    (oW1 : Fin 256 → Fin 128 → EReal) (ob1 : Fin 128 → EReal) (oW2 : Fin 128 → Fin 64 → EReal) (ob2 : Fin 64 → EReal)
    (j : Fin 64) : EReal :=
  a + (logit x oW1 ob1 oW2 ob2 j * Ideal.logistic (logit x oW1 ob1 oW2 ob2 j)) * Ideal.logistic (logit x gW1 gb1 gW2 gb2 j)

/-- The whole updated array, from the three gathered arrays (source bonds S, destination bonds D, vertex atoms Vx),
    the angle features A and the eight parameter arrays: row r, column j is `rowOut` of row r's feature row. -/
def updated (S D A Vx : (⟨2, ![1000000, 64]⟩ : Shape).Idx → EReal)
    (gW1 : (⟨2, ![256, 128]⟩ : Shape).Idx → EReal) (gb1 : (⟨1, ![128]⟩ : Shape).Idx → EReal)
    (gW2 : (⟨2, ![128, 64]⟩ : Shape).Idx → EReal) (gb2 : (⟨1, ![64]⟩ : Shape).Idx → EReal)
    (oW1 : (⟨2, ![256, 128]⟩ : Shape).Idx → EReal) (ob1 : (⟨1, ![128]⟩ : Shape).Idx → EReal)
    (oW2 : (⟨2, ![128, 64]⟩ : Shape).Idx → EReal) (ob2 : (⟨1, ![64]⟩ : Shape).Idx → EReal) :
    (⟨2, ![1000000, 64]⟩ : Shape).Idx → EReal :=
  fun i =>
    rowOut (catRow (fun q => S (ix2 (i 0) q)) (fun q => D (ix2 (i 0) q)) (fun q => A (ix2 (i 0) q)) (fun q => Vx (ix2 (i 0) q)))
      (A (ix2 (i 0) (i 1)))
      (fun k h => gW1 (ix2 k h)) (fun h => gb1 (ix1 h)) (fun h q => gW2 (ix2 h q)) (fun q => gb2 (ix1 q))
      (fun k h => oW1 (ix2 k h)) (fun h => ob1 (ix1 h)) (fun h q => oW2 (ix2 h q)) (fun q => ob2 (ix1 q)) (i 1)

/-- `updated` at row r, column j. -/
theorem updated_apply (S D A Vx : (⟨2, ![1000000, 64]⟩ : Shape).Idx → EReal)
    (gW1 : (⟨2, ![256, 128]⟩ : Shape).Idx → EReal) (gb1 : (⟨1, ![128]⟩ : Shape).Idx → EReal)
    (gW2 : (⟨2, ![128, 64]⟩ : Shape).Idx → EReal) (gb2 : (⟨1, ![64]⟩ : Shape).Idx → EReal)
    (oW1 : (⟨2, ![256, 128]⟩ : Shape).Idx → EReal) (ob1 : (⟨1, ![128]⟩ : Shape).Idx → EReal)
    (oW2 : (⟨2, ![128, 64]⟩ : Shape).Idx → EReal) (ob2 : (⟨1, ![64]⟩ : Shape).Idx → EReal)
    (r : Fin 1000000) (j : Fin 64) :
    updated S D A Vx gW1 gb1 gW2 gb2 oW1 ob1 oW2 ob2 (ix2 r j)
      = rowOut (catRow (fun q => S (ix2 r q)) (fun q => D (ix2 r q)) (fun q => A (ix2 r q)) (fun q => Vx (ix2 r q)))
          (A (ix2 r j))
          (fun k h => gW1 (ix2 k h)) (fun h => gb1 (ix1 h)) (fun h q => gW2 (ix2 h q)) (fun q => gb2 (ix1 q))
          (fun k h => oW1 (ix2 k h)) (fun h => ob1 (ix1 h)) (fun h q => oW2 (ix2 h q)) (fun q => ob2 (ix1 q)) j := rfl

end Cert.AngleSpec

end
-- ==== Proof.KernelBlock.lean ====
/-
  One block of the kernel, read at an element.

  At each grid point the kernel's body stores one block of 8000 rows by 64 columns. This file reads that block at
  row p, column q, and finds the number the specification names: the old angle feature plus the gated output of
  the two small networks on row p's feature row. The steps are the textbook ones. A product of matrices into a
  zero accumulator, read at an element, is the sum over the contracted coordinate of the products of the factors.
  Four blocks of 64 columns laid side by side, read at column k, give the k / 64-th block at column k % 64. A
  single row spread over 8000 rows reads, at any row, that single row. A change of float format is the identity
  on the extended reals, the cut at zero is the maximum with zero, and the logistic function acts entry by entry.
-/
import proofs.«419484_j87978110091589_1_alg».proof.Proof.Spec
import proofs.«419484_j87978110091589_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelBlock

open Idealize.ShloMosaic Idealize.ShloMosaic.ValueIdx Cert.KernelIdeal Cert.KernelIdeal.Gen Cert.AngleSpec

/-- The offset of a block that starts at the origin: zero on both axes. -/
theorem hz2 : (![0, 0] : Fin 2 → Nat) = fun _ => 0 := funext fun a => by fin_cases a <;> rfl

/-! ## The first layer's product: [8000, 256] by [256, 128], contracted over the 256 feature entries -/

/-- The first layer's contraction: axis 1 of the left factor against axis 0 of the right. -/
abbrev dA : DotDims S8000x256 S256x128 S8000x128 := dot_S8000x256_S256x128_S8000x128_1_0_0_1_n_n

/-- The left factor's row is the result's row. -/
theorem lhsA_0 (i : S8000x128.Idx) (c : dA.contr.Idx) : (dA.lhsIdx i c 0).val = (i 0).val := by
  unfold DotDims.lhsIdx
  rw [dif_neg (show ¬(0 : Fin S8000x256.rank) ∈ dA.lhsBatch by decide),
    dif_pos (show (0 : Fin S8000x256.rank) ∈ dA.lhsNonContracting by decide)]
  rfl
/-- The left factor's column is the contracted coordinate. -/
theorem lhsA_1 (i : S8000x128.Idx) (c : dA.contr.Idx) : (dA.lhsIdx i c 1).val = (c ⟨0, by decide⟩).val :=
  dA.lhsIdx_val_of_single rfl i c
/-- The right factor's row is the contracted coordinate. -/
theorem rhsA_0 (i : S8000x128.Idx) (c : dA.contr.Idx) : (dA.rhsIdx i c 0).val = (c ⟨0, by decide⟩).val :=
  dA.rhsIdx_val_of_single rfl i c
/-- The right factor's column is the result's column. -/
theorem rhsA_1 (i : S8000x128.Idx) (c : dA.contr.Idx) : (dA.rhsIdx i c 1).val = (i 1).val := by
  unfold DotDims.rhsIdx
  rw [dif_neg (show ¬(1 : Fin S256x128.rank) ∈ dA.rhsBatch by decide),
    dif_pos (show (1 : Fin S256x128.rank) ∈ dA.rhsNonContracting by decide)]
  rfl

/-- The first layer's product into the zero block, at row p and hidden unit h: the sum over the 256 feature
    entries of row p's entry times the weight from that entry to h. -/
theorem matmulA_apply (L : FVec Ideal S8000x256 .bf16) (R : FVec Ideal S256x128 .bf16) (p : Fin 8000) (h : Fin 128) :
    matmul dA none L R (constant (F := Ideal) S8000x128 .f32 0x00000000#32) (ix2 p h)
      = ∑ k : Fin 256, L (ix2 p k) * R (ix2 k h) := by
  simp only [matmul]
  rw [Ideal.matmul_constant_zero_apply, ← Equiv.sum_comp (contrEquiv1 dA 256 rfl rfl).symm]
  refine Finset.sum_congr rfl fun k _ => ?_
  have hk := contrEquiv1_symm_val dA 256 rfl rfl k
  have el : dA.lhsIdx (ix2 p h) ((contrEquiv1 dA 256 rfl rfl).symm k) = ix2 p k := funext fun a => Fin.ext (by
    match a with
    | ⟨0, _⟩ => exact lhsA_0 _ _
    | ⟨1, _⟩ => exact (lhsA_1 _ _).trans hk)
  have er : dA.rhsIdx (ix2 p h) ((contrEquiv1 dA 256 rfl rfl).symm k) = ix2 k h := funext fun a => Fin.ext (by
    match a with
    | ⟨0, _⟩ => exact (rhsA_0 _ _).trans hk
    | ⟨1, _⟩ => exact rhsA_1 _ _)
  rw [el, er]

/-! ## The second layer's product: [8000, 128] by [128, 64], contracted over the 128 hidden units -/

/-- The second layer's contraction: axis 1 of the left factor against axis 0 of the right. -/
abbrev dB : DotDims S8000x128 S128x64 S8000x64 := dot_S8000x128_S128x64_S8000x64_1_0_0_1_n_n

/-- The left factor's row is the result's row. -/
theorem lhsB_0 (i : S8000x64.Idx) (c : dB.contr.Idx) : (dB.lhsIdx i c 0).val = (i 0).val := by
  unfold DotDims.lhsIdx
  rw [dif_neg (show ¬(0 : Fin S8000x128.rank) ∈ dB.lhsBatch by decide),
    dif_pos (show (0 : Fin S8000x128.rank) ∈ dB.lhsNonContracting by decide)]
  rfl
/-- The left factor's column is the contracted coordinate. -/
theorem lhsB_1 (i : S8000x64.Idx) (c : dB.contr.Idx) : (dB.lhsIdx i c 1).val = (c ⟨0, by decide⟩).val :=
  dB.lhsIdx_val_of_single rfl i c
/-- The right factor's row is the contracted coordinate. -/
theorem rhsB_0 (i : S8000x64.Idx) (c : dB.contr.Idx) : (dB.rhsIdx i c 0).val = (c ⟨0, by decide⟩).val :=
  dB.rhsIdx_val_of_single rfl i c
/-- The right factor's column is the result's column. -/
theorem rhsB_1 (i : S8000x64.Idx) (c : dB.contr.Idx) : (dB.rhsIdx i c 1).val = (i 1).val := by
  unfold DotDims.rhsIdx
  rw [dif_neg (show ¬(1 : Fin S128x64.rank) ∈ dB.rhsBatch by decide),
    dif_pos (show (1 : Fin S128x64.rank) ∈ dB.rhsNonContracting by decide)]
  rfl

/-- The second layer's product into the zero block, at row p and output j: the sum over the 128 hidden units of
    row p's hidden value times the weight from that unit to j. -/
theorem matmulB_apply (L : FVec Ideal S8000x128 .bf16) (R : FVec Ideal S128x64 .bf16) (p : Fin 8000) (j : Fin 64) :
    matmul dB none L R (constant (F := Ideal) S8000x64 .f32 0x00000000#32) (ix2 p j)
      = ∑ h : Fin 128, L (ix2 p h) * R (ix2 h j) := by
  simp only [matmul]
  rw [Ideal.matmul_constant_zero_apply, ← Equiv.sum_comp (contrEquiv1 dB 128 rfl rfl).symm]
  refine Finset.sum_congr rfl fun h _ => ?_
  have hh := contrEquiv1_symm_val dB 128 rfl rfl h
  have el : dB.lhsIdx (ix2 p j) ((contrEquiv1 dB 128 rfl rfl).symm h) = ix2 p h := funext fun a => Fin.ext (by
    match a with
    | ⟨0, _⟩ => exact lhsB_0 _ _
    | ⟨1, _⟩ => exact (lhsB_1 _ _).trans hh)
  have er : dB.rhsIdx (ix2 p j) ((contrEquiv1 dB 128 rfl rfl).symm h) = ix2 h j := funext fun a => Fin.ext (by
    match a with
    | ⟨0, _⟩ => exact (rhsB_0 _ _).trans hh
    | ⟨1, _⟩ => exact rhsB_1 _ _)
  rw [el, er]

/-! ## Blocks side by side, a row spread over the rows, the logistic function entry by entry -/

/-- Row p's feature row: row p of the four blocks, side by side. -/
abbrev featRow (x0 x1 x2 x3 : Vec Ideal S8000x64 .f32) (p : Fin 8000) : Fin 256 → EReal :=
  catRow (fun k => x0 (ix2 p k)) (fun k => x1 (ix2 p k)) (fun k => x2 (ix2 p k)) (fun k => x3 (ix2 p k))

/-- Four blocks of 64 columns joined along the columns, read at row p and column k: the block that holds column k,
    at k less the 64, 128 or 192 columns before it. -/
theorem concat4_apply (a b c d : FVec Ideal S8000x64 .f32) (p : Fin 8000) (k : Fin 256) :
    concatenate S8000x256 1 [⟨S8000x64, a⟩, ⟨S8000x64, b⟩, ⟨S8000x64, c⟩, ⟨S8000x64, d⟩]
        concatenates_S8000x64_S8000x64_S8000x64_S8000x64_S8000x256_d1 (ix2 p k)
      = catRow (fun q => a (ix2 p q)) (fun q => b (ix2 p q)) (fun q => c (ix2 p q)) (fun q => d (ix2 p q)) k := by
  have off : ∀ (t : Fin 64) (e : Fin S8000x64.rank), e.cast (rfl : S8000x64.rank = S8000x256.rank) ≠ (1 : Fin 2) →
      ((ix2 p t : S8000x64.Idx) e).val = ((ix2 p k : S8000x256.Idx) (e.cast rfl)).val := fun t e he => by
    match e with
    | ⟨0, _⟩ => rfl
    | ⟨1, _⟩ => exact absurd rfl he
  -- the four pieces are a list of length four
  have len : ∀ n : Nat, n < 4 →
      n < ([⟨S8000x64, a⟩, ⟨S8000x64, b⟩, ⟨S8000x64, c⟩, ⟨S8000x64, d⟩] : List ((s : Shape) × (s.Idx → Ideal .f32))).length :=
    fun _ hn => hn
  unfold catRow
  split_ifs with h1 h2 h3
  · exact concatenate_apply_piece (1 : Fin 2) _ _ (ix2 p k) 0 (len 0 (by omega)) S8000x64 a rfl rfl 0 rfl
      (ix2 p ⟨k.val, h1⟩) (off _) (by show 0 + k.val = k.val; omega)
  · exact concatenate_apply_piece (1 : Fin 2) _ _ (ix2 p k) 1 (len 1 (by omega)) S8000x64 b rfl rfl 64 rfl
      (ix2 p ⟨k.val - 64, by omega⟩) (off _) (by show 64 + (k.val - 64) = k.val; omega)
  · exact concatenate_apply_piece (1 : Fin 2) _ _ (ix2 p k) 2 (len 2 (by omega)) S8000x64 c rfl rfl 128 rfl
      (ix2 p ⟨k.val - 128, by omega⟩) (off _) (by show 128 + (k.val - 128) = k.val; omega)
  · exact concatenate_apply_piece (1 : Fin 2) _ _ (ix2 p k) 3 (len 3 (by omega)) S8000x64 d rfl rfl 192 rfl
      (ix2 p ⟨k.val - 192, by omega⟩) (off _) (by show 192 + (k.val - 192) = k.val; omega)

/-- The single row of 128 biases spread over the 8000 rows reads, at any row, that single row. -/
theorem bcastRow128_apply (v : FVec Ideal S1x128 .f32) (p : Fin 8000) (h : Fin 128) :
    broadcastTo S8000x128 v broadcasts_S1x128_S8000x128 (ix2 p h) = v (ix2 (0 : Fin 1) h) :=
  broadcastTo_apply v _ (ix2 p h) (ix2 (0 : Fin 1) h) fun a => by
    match a with
    | ⟨0, _⟩ => rfl
    | ⟨1, _⟩ => rfl

/-- The single row of 64 biases spread over the 8000 rows reads, at any row, that single row. -/
theorem bcastRow64_apply (v : FVec Ideal S1x64 .f32) (p : Fin 8000) (j : Fin 64) :
    broadcastTo S8000x64 v broadcasts_S1x64_S8000x64 (ix2 p j) = v (ix2 (0 : Fin 1) j) :=
  broadcastTo_apply v _ (ix2 p j) (ix2 (0 : Fin 1) j) fun a => by
    match a with
    | ⟨0, _⟩ => rfl
    | ⟨1, _⟩ => rfl

/-- The logistic function of a block, at an entry, is the logistic function of the entry. -/
theorem logistic_apply {s : Shape} {φ : FTy} (v : FVec Ideal s φ) (i : s.Idx) : logistic v i = Ideal.logistic (v i) := rfl

/-- The change of format from 32 to 16 bits is the identity on the extended reals. -/
theorem truncf_bf16_apply {s : Shape} (v : FVec Ideal s .f32) (i : s.Idx) :
    (truncf .bf16 v bitsLt_bf16_f32 : FVec Ideal s .bf16) i = v i := rfl

/-! ## The kernel's values, read at an element -/

/-- The feature block the kernel forms (the four loaded blocks joined, its format changed) at row p, entry k. -/
theorem pay2_apply (x0 x1 x2 x3 : Vec Ideal S8000x64 .f32) (p : Fin 8000) (k : Fin 256) :
    k0_pay2 (F := Ideal) x0 x1 x2 x3 (ix2 p k) = featRow x0 x1 x2 x3 p k := by
  unfold k0_pay2
  rw [shapeCast_self x0, shapeCast_self x1, shapeCast_self x3]
  exact (truncf_bf16_apply _ _).trans (concat4_apply x0 x1 x2 x3 p k)

/-- A network's first layer before the cut, as the kernel forms it (product into the zero block, plus the bias row
    spread over the rows), at row p and hidden unit h. -/
theorem pay4_apply (x0 x1 x2 x3 : Vec Ideal S8000x64 .f32) (W : Vec Ideal S256x128 .bf16) (b : Vec Ideal S1x128 .f32)
    (p : Fin 8000) (h : Fin 128) :
    k0_pay4 (F := Ideal) x0 x1 x2 x3 W b (ix2 p h)
      = (∑ k : Fin 256, featRow x0 x1 x2 x3 p k * W (ix2 k h)) + b (ix2 (0 : Fin 1) h) := by
  unfold k0_pay4
  rw [shapeCast_self W, shapeCast_self b]
  refine (addf_apply _ _ _).trans ?_
  rw [matmulA_apply, bcastRow128_apply]
  simp only [pay2_apply]

/-- The cut at zero of a first layer, its format changed, times the second layer's weights, summed, plus the second
    bias row: a network's output j on row p, from its first layer u before the cut. -/
theorem layer2_apply (u : FVec Ideal S8000x128 .f32) (W2 : FVec Ideal S128x64 .bf16) (b2 : FVec Ideal S1x64 .f32)
    (p : Fin 8000) (j : Fin 64) :
    addf (matmul dB none
            (truncf .bf16 (maximumf u (broadcast S8000x128 (Scalar.ofBits (F := Ideal) .f32 0x00000000#32))) bitsLt_bf16_f32)
            W2 (constant (F := Ideal) S8000x64 .f32 0x00000000#32))
          (broadcastTo S8000x64 b2 broadcasts_S1x64_S8000x64) (ix2 p j)
      = (∑ h : Fin 128, max (u (ix2 p h)) zeroWord * W2 (ix2 h j)) + b2 (ix2 (0 : Fin 1) j) := by
  refine (addf_apply _ _ _).trans ?_
  rw [matmulB_apply, bcastRow64_apply]
  rfl

/-- The gating factor the kernel forms: the logistic function of the first network's output j on row p. -/
theorem pay3_apply (x0 x1 x2 x3 : Vec Ideal S8000x64 .f32) (W1 : Vec Ideal S256x128 .bf16) (b1 : Vec Ideal S1x128 .f32)
    (W2 : Vec Ideal S128x64 .bf16) (b2 : Vec Ideal S1x64 .f32) (p : Fin 8000) (j : Fin 64) :
    k0_pay3 (F := Ideal) x0 x1 x2 x3 W1 b1 W2 b2 (ix2 p j)
      = Ideal.logistic (logit (featRow x0 x1 x2 x3 p) (fun k h => W1 (ix2 k h)) (fun h => b1 (ix2 (0 : Fin 1) h))
          (fun h i => W2 (ix2 h i)) (fun i => b2 (ix2 (0 : Fin 1) i)) j) := by
  unfold k0_pay3
  rw [shapeCast_self W2, shapeCast_self b2]
  refine (logistic_apply _ _).trans (congrArg Ideal.logistic ?_)
  -- the first layer before the cut is the same value the other network's first layer names
  refine (layer2_apply (k0_pay4 (F := Ideal) x0 x1 x2 x3 W1 b1) W2 b2 p j).trans ?_
  simp only [pay4_apply]
  rfl

/-- The stored block, from the gating factor g and the second network's first layer u before the cut: at row p,
    column j, the old feature plus the second network's output times its own logistic value times g. -/
theorem pay1_apply (g : FVec Ideal S8000x64 .f32) (u : FVec Ideal S8000x128 .f32) (W2 : Vec Ideal S128x64 .bf16)
    (b2 : Vec Ideal S1x64 .f32) (a : Vec Ideal S8000x64 .f32) (p : Fin 8000) (j : Fin 64) :
    k0_pay1 (F := Ideal) g u (Scalar.ofBits .f32 0x00000000#32) W2 b2 a (ix2 p j)
      = a (ix2 p j)
        + (((∑ h : Fin 128, max (u (ix2 p h)) zeroWord * W2 (ix2 h j)) + b2 (ix2 (0 : Fin 1) j))
            * Ideal.logistic ((∑ h : Fin 128, max (u (ix2 p h)) zeroWord * W2 (ix2 h j)) + b2 (ix2 (0 : Fin 1) j)))
          * g (ix2 p j) := by
  unfold k0_pay1
  rw [shapeCast_self W2, shapeCast_self b2]
  refine (addf_apply _ _ _).trans (congrArg (a (ix2 p j) + ·) ?_)
  refine (mulf_apply _ _ _).trans (congrArg (· * g (ix2 p j)) ?_)
  refine (mulf_apply _ _ _).trans ?_
  rw [logistic_apply, layer2_apply u W2 b2 p j]

/-! ## The block -/

/-- **The kernel's one output block read at an element**: at row p, column q it holds the specification's updated
    feature for the feature row made of row p of the four loaded blocks. -/
theorem out_block_apply (x0 x1 x2 x3 : Vec Ideal S8000x64 .f32) (x4 : Vec Ideal S256x128 .bf16) (x5 : Vec Ideal S1x128 .f32)
    (x6 : Vec Ideal S128x64 .bf16) (x7 : Vec Ideal S1x64 .f32) (x8 : Vec Ideal S256x128 .bf16) (x9 : Vec Ideal S1x128 .f32)
    (x10 : Vec Ideal S128x64 .bf16) (x11 : Vec Ideal S1x64 .f32) (p : Fin 8000) (q : Fin 64) :
    out0_12 (F := Ideal) x0 x1 x2 x3 x4 x5 x6 x7 x8 x9 x10 x11 (ix2 p q)
      = rowOut (catRow (fun k => x0 (ix2 p k)) (fun k => x1 (ix2 p k)) (fun k => x2 (ix2 p k)) (fun k => x3 (ix2 p k)))
          (x2 (ix2 p q))
          (fun k h => x4 (ix2 k h)) (fun h => x5 (ix2 (0 : Fin 1) h)) (fun h j => x6 (ix2 h j)) (fun j => x7 (ix2 (0 : Fin 1) j))
          (fun k h => x8 (ix2 k h)) (fun h => x9 (ix2 (0 : Fin 1) h)) (fun h j => x10 (ix2 h j)) (fun j => x11 (ix2 (0 : Fin 1) j)) q := by
  unfold out0_12
  rw [View.canon_unit_zero hz2]
  simp only [View.ld_unit_zero (S := S8000x64) hz2, View.ld_unit_zero (S := S256x128) hz2,
    View.ld_unit_zero (S := S1x128) hz2, View.ld_unit_zero (S := S128x64) hz2, View.ld_unit_zero (S := S1x64) hz2]
  rw [pay1_apply, pay3_apply]
  simp only [pay4_apply]
  rfl

end Cert.KernelBlock

end
-- ==== Proof.Blocks.lean ====
/-
  From the blocks to the whole array.

  The grid has 125 points. At point t the output's block is rows 8000 t to 8000 t + 7999 of the result, the four
  row arrays' blocks are the same rows of their arrays, and the eight parameter arrays are read whole. So what point t
  writes back is exactly those rows of one function of the whole arrays: the specification's updated array. Every row
  r lies in the block of point r / 8000 and every point writes back, so the result ends holding that function.
-/
import proofs.«419484_j87978110091589_1_alg».proof.Proof.KernelBlock
import proofs.«419484_j87978110091589_1_alg».proof.Proof.Spec
import proofs.«419484_j87978110091589_1_alg».proof.Proof.Gen.KernelIdeal.Value
import Idealize.ShloMosaic.Lib.Pipeline.Value

noncomputable section

namespace Cert.Blocks

open Cert.KernelIdeal Cert.KernelIdeal.Gen Idealize.ShloMosaic Idealize.ShloMosaic.TcCoe Idealize.SL.Sem
open Idealize.ShloMosaic.ValueIdx Cert.AngleSpec
open Idealize.ShloMosaic.Pipeline (Dat)

variable (m : (ℓ : Loc nD τ sig) → Buf (Elt Ideal) ℓ)

/-- The updated array of the specification, of the arrays as the region finds them: the two gathered bond arrays,
    the angle features, the gathered atom array, and the two networks' weights and bias rows. -/
abbrev wholeOut (c : Dev nD) : S1000000x64.Idx → EReal :=
  updated (V m c main_v0) (V m c main_v1) (V m c main_arg2) (V m c main_v4)
    (V m c main_v5) (fun i => V m c main_v9 (ix2 (0 : Fin 1) (i 0))) (V m c main_v6) (fun i => V m c main_v10 (ix2 (0 : Fin 1) (i 0)))
    (V m c main_v7) (fun i => V m c main_v11 (ix2 (0 : Fin 1) (i 0))) (V m c main_v8) (fun i => V m c main_v12 (ix2 (0 : Fin 1) (i 0)))

/-! ## Where each window's block sits, decided once over the 125 grid points -/

/-- The four row windows and the output window sit at block row t, block column 0. -/
theorem rowBlocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0 :=
  (by decide +kernel : ∀ t : Fin grid0.N, _)

/-- The eight parameter windows sit at block (0, 0) at every point. -/
theorem wholeBlocks : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- A point's number is below 125. -/
theorem point_lt (t : Fin cfg0.N) : t.val < 125 := N_0 ▸ t.isLt

/-! ## Each input block read at an element

A block's coordinate in its array is always the block's index times the block's size plus the coordinate inside. -/

/-- Row window 0's block at point t (the source bonds' rows), at row p and column q: row 8000 t + p of its array. -/
theorem iblk0_apply (c : Dev nD) (t : Fin cfg0.N) (p : Fin 8000) (q : Fin 64) :
    (iblk m c 0 t : Vec Ideal S8000x64 .f32) (ix2 p q)
      = (V m c main_v0 : S1000000x64.Idx → EReal) (ix2 ⟨8000 * t.val + p.val, by have := point_lt t; have := p.isLt; omega⟩ q) := by
  obtain ⟨e0, e1, -⟩ := rowBlocks t
  have hV : (V m c main_v0 : S1000000x64.Idx → EReal) = V m c (Pipeline.arrRef spec0 0) := rfl
  rw [hV]
  unfold iblk
  generalize V m c (Pipeline.arrRef spec0 0) = X
  rw [View.read_apply, cast_eq]
  refine congrArg X (funext fun a => Fin.ext ?_)
  match a with
  | ⟨0, _⟩ => show win0_0.index t 0 * 8000 + 1 * p.val = 8000 * t.val + p.val; rw [e0]; omega
  | ⟨1, _⟩ => show win0_0.index t 1 * 64 + 1 * q.val = q.val; rw [e1]; omega

/-- Row window 1's block at point t (the destination bonds' rows), at row p and column q: row 8000 t + p of its array. -/
theorem iblk1_apply (c : Dev nD) (t : Fin cfg0.N) (p : Fin 8000) (q : Fin 64) :
    (iblk m c 1 t : Vec Ideal S8000x64 .f32) (ix2 p q)
      = (V m c main_v1 : S1000000x64.Idx → EReal) (ix2 ⟨8000 * t.val + p.val, by have := point_lt t; have := p.isLt; omega⟩ q) := by
  obtain ⟨-, -, e0, e1, -⟩ := rowBlocks t
  have hV : (V m c main_v1 : S1000000x64.Idx → EReal) = V m c (Pipeline.arrRef spec0 1) := rfl
  rw [hV]
  unfold iblk
  generalize V m c (Pipeline.arrRef spec0 1) = X
  rw [View.read_apply, cast_eq]
  refine congrArg X (funext fun a => Fin.ext ?_)
  match a with
  | ⟨0, _⟩ => show win0_1.index t 0 * 8000 + 1 * p.val = 8000 * t.val + p.val; rw [e0]; omega
  | ⟨1, _⟩ => show win0_1.index t 1 * 64 + 1 * q.val = q.val; rw [e1]; omega

/-- Row window 2's block at point t (the angle features), at row p and column q: row 8000 t + p of its array. -/
theorem iblk2_apply (c : Dev nD) (t : Fin cfg0.N) (p : Fin 8000) (q : Fin 64) :
    (iblk m c 2 t : Vec Ideal S8000x64 .f32) (ix2 p q)
      = (V m c main_arg2 : S1000000x64.Idx → EReal) (ix2 ⟨8000 * t.val + p.val, by have := point_lt t; have := p.isLt; omega⟩ q) := by
  obtain ⟨-, -, -, -, e0, e1, -⟩ := rowBlocks t
  have hV : (V m c main_arg2 : S1000000x64.Idx → EReal) = V m c (Pipeline.arrRef spec0 2) := rfl
  rw [hV]
  unfold iblk
  generalize V m c (Pipeline.arrRef spec0 2) = X
  rw [View.read_apply, cast_eq]
  refine congrArg X (funext fun a => Fin.ext ?_)
  match a with
  | ⟨0, _⟩ => show win0_2.index t 0 * 8000 + 1 * p.val = 8000 * t.val + p.val; rw [e0]; omega
  | ⟨1, _⟩ => show win0_2.index t 1 * 64 + 1 * q.val = q.val; rw [e1]; omega

/-- Row window 3's block at point t (the vertex atoms' rows), at row p and column q: row 8000 t + p of its array. -/
theorem iblk3_apply (c : Dev nD) (t : Fin cfg0.N) (p : Fin 8000) (q : Fin 64) :
    (iblk m c 3 t : Vec Ideal S8000x64 .f32) (ix2 p q)
      = (V m c main_v4 : S1000000x64.Idx → EReal) (ix2 ⟨8000 * t.val + p.val, by have := point_lt t; have := p.isLt; omega⟩ q) := by
  obtain ⟨-, -, -, -, -, -, e0, e1, -⟩ := rowBlocks t
  have hV : (V m c main_v4 : S1000000x64.Idx → EReal) = V m c (Pipeline.arrRef spec0 3) := rfl
  rw [hV]
  unfold iblk
  generalize V m c (Pipeline.arrRef spec0 3) = X
  rw [View.read_apply, cast_eq]
  refine congrArg X (funext fun a => Fin.ext ?_)
  match a with
  | ⟨0, _⟩ => show win0_3.index t 0 * 8000 + 1 * p.val = 8000 * t.val + p.val; rw [e0]; omega
  | ⟨1, _⟩ => show win0_3.index t 1 * 64 + 1 * q.val = q.val; rw [e1]; omega

/-- The first network's first weights, read whole at every point: the block is the array. -/
theorem iblk4_apply (c : Dev nD) (t : Fin cfg0.N) (k : Fin 256) (h : Fin 128) :
    (iblk m c 4 t : Vec Ideal S256x128 .bf16) (ix2 k h) = (V m c main_v5 : S256x128.Idx → EReal) (ix2 k h) := by
  obtain ⟨e0, e1, -⟩ := wholeBlocks t
  have hV : (V m c main_v5 : S256x128.Idx → EReal) = V m c (Pipeline.arrRef spec0 4) := rfl
  rw [hV]
  unfold iblk
  generalize V m c (Pipeline.arrRef spec0 4) = X
  rw [View.read_apply, cast_eq]
  refine congrArg X (funext fun a => Fin.ext ?_)
  match a with
  | ⟨0, _⟩ => show win0_4.index t 0 * 256 + 1 * k.val = k.val; rw [e0]; omega
  | ⟨1, _⟩ => show win0_4.index t 1 * 128 + 1 * h.val = h.val; rw [e1]; omega

/-- The first network's first bias row, read whole at every point: the block is the array. -/
theorem iblk5_apply (c : Dev nD) (t : Fin cfg0.N) (z : Fin 1) (h : Fin 128) :
    (iblk m c 5 t : Vec Ideal S1x128 .f32) (ix2 z h) = (V m c main_v9 : S1x128.Idx → EReal) (ix2 z h) := by
  obtain ⟨-, -, e0, e1, -⟩ := wholeBlocks t
  have hV : (V m c main_v9 : S1x128.Idx → EReal) = V m c (Pipeline.arrRef spec0 5) := rfl
  rw [hV]
  unfold iblk
  generalize V m c (Pipeline.arrRef spec0 5) = X
  rw [View.read_apply, cast_eq]
  refine congrArg X (funext fun a => Fin.ext ?_)
  match a with
  | ⟨0, _⟩ => show win0_5.index t 0 * 1 + 1 * z.val = z.val; rw [e0]; omega
  | ⟨1, _⟩ => show win0_5.index t 1 * 128 + 1 * h.val = h.val; rw [e1]; omega

/-- The first network's second weights, read whole at every point: the block is the array. -/
theorem iblk6_apply (c : Dev nD) (t : Fin cfg0.N) (h : Fin 128) (j : Fin 64) :
    (iblk m c 6 t : Vec Ideal S128x64 .bf16) (ix2 h j) = (V m c main_v6 : S128x64.Idx → EReal) (ix2 h j) := by
  obtain ⟨-, -, -, -, e0, e1, -⟩ := wholeBlocks t
  have hV : (V m c main_v6 : S128x64.Idx → EReal) = V m c (Pipeline.arrRef spec0 6) := rfl
  rw [hV]
  unfold iblk
  generalize V m c (Pipeline.arrRef spec0 6) = X
  rw [View.read_apply, cast_eq]
  refine congrArg X (funext fun a => Fin.ext ?_)
  match a with
  | ⟨0, _⟩ => show win0_6.index t 0 * 128 + 1 * h.val = h.val; rw [e0]; omega
  | ⟨1, _⟩ => show win0_6.index t 1 * 64 + 1 * j.val = j.val; rw [e1]; omega

/-- The first network's second bias row, read whole at every point: the block is the array. -/
theorem iblk7_apply (c : Dev nD) (t : Fin cfg0.N) (z : Fin 1) (j : Fin 64) :
    (iblk m c 7 t : Vec Ideal S1x64 .f32) (ix2 z j) = (V m c main_v10 : S1x64.Idx → EReal) (ix2 z j) := by
  obtain ⟨-, -, -, -, -, -, e0, e1, -⟩ := wholeBlocks t
  have hV : (V m c main_v10 : S1x64.Idx → EReal) = V m c (Pipeline.arrRef spec0 7) := rfl
  rw [hV]
  unfold iblk
  generalize V m c (Pipeline.arrRef spec0 7) = X
  rw [View.read_apply, cast_eq]
  refine congrArg X (funext fun a => Fin.ext ?_)
  match a with
  | ⟨0, _⟩ => show win0_7.index t 0 * 1 + 1 * z.val = z.val; rw [e0]; omega
  | ⟨1, _⟩ => show win0_7.index t 1 * 64 + 1 * j.val = j.val; rw [e1]; omega

/-- The second network's first weights, read whole at every point: the block is the array. -/
theorem iblk8_apply (c : Dev nD) (t : Fin cfg0.N) (k : Fin 256) (h : Fin 128) :
    (iblk m c 8 t : Vec Ideal S256x128 .bf16) (ix2 k h) = (V m c main_v7 : S256x128.Idx → EReal) (ix2 k h) := by
  obtain ⟨-, -, -, -, -, -, -, -, e0, e1, -⟩ := wholeBlocks t
  have hV : (V m c main_v7 : S256x128.Idx → EReal) = V m c (Pipeline.arrRef spec0 8) := rfl
  rw [hV]
  unfold iblk
  generalize V m c (Pipeline.arrRef spec0 8) = X
  rw [View.read_apply, cast_eq]
  refine congrArg X (funext fun a => Fin.ext ?_)
  match a with
  | ⟨0, _⟩ => show win0_8.index t 0 * 256 + 1 * k.val = k.val; rw [e0]; omega
  | ⟨1, _⟩ => show win0_8.index t 1 * 128 + 1 * h.val = h.val; rw [e1]; omega

/-- The second network's first bias row, read whole at every point: the block is the array. -/
theorem iblk9_apply (c : Dev nD) (t : Fin cfg0.N) (z : Fin 1) (h : Fin 128) :
    (iblk m c 9 t : Vec Ideal S1x128 .f32) (ix2 z h) = (V m c main_v11 : S1x128.Idx → EReal) (ix2 z h) := by
  obtain ⟨-, -, -, -, -, -, -, -, -, -, e0, e1, -⟩ := wholeBlocks t
  have hV : (V m c main_v11 : S1x128.Idx → EReal) = V m c (Pipeline.arrRef spec0 9) := rfl
  rw [hV]
  unfold iblk
  generalize V m c (Pipeline.arrRef spec0 9) = X
  rw [View.read_apply, cast_eq]
  refine congrArg X (funext fun a => Fin.ext ?_)
  match a with
  | ⟨0, _⟩ => show win0_9.index t 0 * 1 + 1 * z.val = z.val; rw [e0]; omega
  | ⟨1, _⟩ => show win0_9.index t 1 * 128 + 1 * h.val = h.val; rw [e1]; omega

/-- The second network's second weights, read whole at every point: the block is the array. -/
theorem iblk10_apply (c : Dev nD) (t : Fin cfg0.N) (h : Fin 128) (j : Fin 64) :
    (iblk m c 10 t : Vec Ideal S128x64 .bf16) (ix2 h j) = (V m c main_v8 : S128x64.Idx → EReal) (ix2 h j) := by
  obtain ⟨-, -, -, -, -, -, -, -, -, -, -, -, e0, e1, -⟩ := wholeBlocks t
  have hV : (V m c main_v8 : S128x64.Idx → EReal) = V m c (Pipeline.arrRef spec0 10) := rfl
  rw [hV]
  unfold iblk
  generalize V m c (Pipeline.arrRef spec0 10) = X
  rw [View.read_apply, cast_eq]
  refine congrArg X (funext fun a => Fin.ext ?_)
  match a with
  | ⟨0, _⟩ => show win0_10.index t 0 * 128 + 1 * h.val = h.val; rw [e0]; omega
  | ⟨1, _⟩ => show win0_10.index t 1 * 64 + 1 * j.val = j.val; rw [e1]; omega

/-- The second network's second bias row, read whole at every point: the block is the array. -/
theorem iblk11_apply (c : Dev nD) (t : Fin cfg0.N) (z : Fin 1) (j : Fin 64) :
    (iblk m c 11 t : Vec Ideal S1x64 .f32) (ix2 z j) = (V m c main_v12 : S1x64.Idx → EReal) (ix2 z j) := by
  obtain ⟨-, -, -, -, -, -, -, -, -, -, -, -, -, -, e0, e1⟩ := wholeBlocks t
  have hV : (V m c main_v12 : S1x64.Idx → EReal) = V m c (Pipeline.arrRef spec0 11) := rfl
  rw [hV]
  unfold iblk
  generalize V m c (Pipeline.arrRef spec0 11) = X
  rw [View.read_apply, cast_eq]
  refine congrArg X (funext fun a => Fin.ext ?_)
  match a with
  | ⟨0, _⟩ => show win0_11.index t 0 * 1 + 1 * z.val = z.val; rw [e0]; omega
  | ⟨1, _⟩ => show win0_11.index t 1 * 64 + 1 * j.val = j.val; rw [e1]; omega

/-! ## What one point writes back

The stored block at row p, column q is the row update of the feature row the four row blocks hold at row p; read
through the arrays, that is row 8000 t + p of the whole arrays, so it is the updated array there. -/

/-- The kernel's block at point t, at row p and column q, is the updated array at row 8000 t + p, column q. -/
theorem block_apply (c : Dev nD) (t : Fin cfg0.N) (p : Fin 8000) (q : Fin 64) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = wholeOut m c (ix2 ⟨8000 * t.val + p.val, by have := point_lt t; have := p.isLt; omega⟩ q) := by
  refine (Cert.KernelBlock.out_block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  unfold wholeOut
  rw [updated_apply]
  simp only [iblk0_apply m c t, iblk1_apply m c t, iblk2_apply m c t, iblk3_apply m c t, iblk4_apply m c t, iblk5_apply m c t, iblk6_apply m c t, iblk7_apply m c t, iblk8_apply m c t, iblk9_apply m c t, iblk10_apply m c t, iblk11_apply m c t]

/-- Block t of any array of the result's shape, read at row p and column q, is the array at row 8000 t + p. -/
theorem read_block (G : S1000000x64.Idx → EReal) (t : Fin cfg0.N) (p : Fin 8000) (q : Fin 64) :
    ((cfg0.win 12).blk t).view.read (Elt Ideal) G (ix2 p q)
      = G (ix2 ⟨8000 * t.val + p.val, by have := point_lt t; have := p.isLt; omega⟩ q) := by
  obtain ⟨-, -, -, -, -, -, -, -, e0, e1⟩ := rowBlocks t
  rw [View.read_apply, cast_eq]
  refine congrArg G (funext fun a => Fin.ext ?_)
  match a with
  | ⟨0, _⟩ => show win0_12.index t 0 * 8000 + 1 * p.val = 8000 * t.val + p.val; rw [e0]; omega
  | ⟨1, _⟩ => show win0_12.index t 1 * 64 + 1 * q.val = q.val; rw [e1]; omega

/-- What point t writes back is block t of the updated array. -/
theorem flushed_eq (c : Dev nD) (t : Fin cfg0.N) :
    (dats m 0 c).flushed 12 t = ((cfg0.win 12).blk t).view.read (Elt Ideal) (wholeOut m c) := by
  rw [Cert.KernelIdeal.Value.flushed12]
  funext y
  obtain ⟨p, q, rfl⟩ : ∃ (p : Fin 8000) (q : Fin 64), y = ix2 p q := ⟨y 0, y 1, eq_ix2 y⟩
  exact (block_apply m c t p q).trans (read_block (wholeOut m c) t p q).symm

/-! ## The blocks fill the array -/

/-- Every index of the result lies in the block of the point its row names, and that point writes back. -/
theorem cover (i : S1000000x64.Idx) :
    ∃ t : Fin cfg0.N, (cfg0.win 12).flush t = true ∧ i ∈ ((cfg0.win 12).blk t).view.set := by
  have hi0 : (i 0).val < 1000000 := (i 0).isLt
  have hi1 : (i 1).val < 64 := (i 1).isLt
  have hN : cfg0.N = 125 := N_0
  obtain ⟨t, ht⟩ : ∃ t : Fin cfg0.N, t.val = (i 0).val / 8000 := ⟨⟨(i 0).val / 8000, by rw [hN]; omega⟩, rfl⟩
  obtain ⟨-, -, -, -, -, -, -, -, e0, e1⟩ := rowBlocks t
  refine ⟨t, flush0_12 t, ?_⟩
  show i ∈ ((View.whole main_v13).slice (win0_12.rect t)).set
  rw [View.set_slice_whole, Rect.mem_set_unit]
  intro a
  match a with
  | ⟨0, _⟩ =>
    show win0_12.index t 0 * 8000 ≤ (i 0).val ∧ (i 0).val < win0_12.index t 0 * 8000 + 8000
    rw [e0, ht]
    omega
  | ⟨1, _⟩ =>
    show win0_12.index t 1 * 64 ≤ (i 1).val ∧ (i 1).val < win0_12.index t 1 * 64 + 64
    rw [e1]
    omega

/-- The result array after the run is the specification's updated array of the arrays as the region finds them. -/
theorem final (c : Dev nD) :
    (dats m 0 c).arrAt 12 cfg0.N
      = updated (V m c main_v0) (V m c main_v1) (V m c main_arg2) (V m c main_v4)
          (V m c main_v5) (fun i => V m c main_v9 (ix2 (0 : Fin 1) (i 0))) (V m c main_v6) (fun i => V m c main_v10 (ix2 (0 : Fin 1) (i 0)))
          (V m c main_v7) (fun i => V m c main_v11 (ix2 (0 : Fin 1) (i 0))) (V m c main_v8) (fun i => V m c main_v12 (ix2 (0 : Fin 1) (i 0))) :=
  (dats m 0 c).arrAt_eq_of_cover 12 (wholeOut m c) (fun t _ => flushed_eq m c t) cover

end Cert.Blocks

end
-- ==== Proof.TakeRows.lean ====
/-
  A row take that fills rows named out of range, when no row is named out of range.

  The take compares every start index with the table's row range, row by row, reduces the comparison over the
  one-entry index vector by "and", spreads the resulting bit over the row's columns and selects between the gathered
  row and a fill value. When every index lies in the range, every bit is one and the selection is the gathered array
  itself. The facts below are the pieces of that argument: a reduction by "and" of ones from one is one, a select on
  an all-ones condition is its first operand, and a signed word in [0, N) is not below zero and is at most N − 1.
-/
import Idealize.ShloMosaic.Lib.ReduceAll
import Idealize.ShloMosaic.Lib.ValueIdx

noncomputable section

namespace Cert.TakeRows

open Idealize.ShloMosaic Idealize.ShloMosaic.ValueIdx

/-- A left fold by "and" over one-bit words that are all one, started at one, is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by "and" of an array of ones, from the initial value one, is one at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x _ fun n _ => hx n

/-- A select whose condition is one everywhere is its first operand. -/
theorem select_of_all_one {s : Shape} {α : Type} (c : IVec s 1) (a b : s.Idx → α) (hc : ∀ i, c i = 1#1) :
    select c a b = a := by
  funext i
  rw [select_apply, hc i, select_one]

/-- A broadcast of an array of ones is one at every index. -/
theorem bcast_of_all_one {s t : Shape} (dims : Fin s.rank → Fin t.rank) (hb : s.BroadcastsInDim t dims) (v : IVec s 1)
    (hv : ∀ r, v r = 1#1) (i : t.Idx) : broadcastInDim t dims hb v i = 1#1 := hv _

/-- A word that is at least zero, signed, is not below zero. -/
theorem slt_zero_of_sge (w : BitVec 32) (h0 : IntOp.cmpi .sge w 0#32 = 1#1) : IntOp.cmpi .slt w 0#32 = 0#1 := by
  rw [IntOp.cmpi_sge] at h0
  refine eq_zero_of_ne_one fun h => ?_
  rw [IntOp.cmpi_slt] at h
  omega

/-- A word below a limit, signed, is at most the limit's predecessor. -/
theorem sle_of_slt_succ (w hi lim : BitVec 32) (hl : lim.toInt = hi.toInt + 1) (h1 : IntOp.cmpi .slt w lim = 1#1) :
    IntOp.cmpi .sle w hi = 1#1 := by
  rw [IntOp.cmpi_slt] at h1
  rw [IntOp.cmpi_sle]
  omega

/-- The take's normalisation of a start index (a negative index counts from the end) leaves an index that is at
    least zero as it is, and its range test then passes: the word is at least zero and at most the last row. -/
theorem range_test (w hi lim : BitVec 32) (hl : lim.toInt = hi.toInt + 1) (h0 : IntOp.cmpi .sge w 0#32 = 1#1)
    (h1 : IntOp.cmpi .slt w lim = 1#1) :
    IntOp.andi (IntOp.cmpi .sge (Scalar.select (IntOp.cmpi .slt w 0#32) (IntOp.addi w lim) w) 0#32)
      (IntOp.cmpi .sle (Scalar.select (IntOp.cmpi .slt w 0#32) (IntOp.addi w lim) w) hi) = 1#1 := by
  rw [slt_zero_of_sge w h0, select_zero, h0, sle_of_slt_succ w hi lim hl h1]
  decide

/-! ## The take, as the host code spells it -/

section Take

variable {n C : Nat} {sx : Shape}

/-- The take's start indices: a negative index counts from the end (the table's row count is added), every other
    index is kept; the vector is then laid out as a column. -/
def normIdx (lim : BitVec 32)
    (b0 : (⟨0, ![]⟩ : Shape).BroadcastsInDim ⟨1, ![n]⟩ (![] : Fin 0 → Fin 1))
    (b1 : (⟨1, ![n]⟩ : Shape).BroadcastsInDim ⟨2, ![n, 1]⟩ (![0] : Fin 1 → Fin 2))
    (idx : IVec ⟨1, ![n]⟩ 32) : IVec ⟨2, ![n, 1]⟩ 32 :=
  broadcastInDim ⟨2, ![n, 1]⟩ ![0] b1
    (select (cmpi .slt idx (broadcastInDim ⟨1, ![n]⟩ ![] b0 (constantI ⟨0, ![]⟩ 32 0#32)))
      (addi idx (broadcastInDim ⟨1, ![n]⟩ ![] b0 (constantI ⟨0, ![]⟩ 32 lim))) idx)

/-- The row take with fill: the gathered rows where the normalised index passes the range test 0 ≤ · ≤ hi, the fill
    word's value elsewhere. -/
def fillTake (d : GatherDims sx ⟨2, ![n, 1]⟩ ⟨2, ![n, C]⟩) (lim hi : BitVec 32) (fill : BitVec 32)
    (b0 : (⟨0, ![]⟩ : Shape).BroadcastsInDim ⟨1, ![n]⟩ (![] : Fin 0 → Fin 1))
    (b1 : (⟨1, ![n]⟩ : Shape).BroadcastsInDim ⟨2, ![n, 1]⟩ (![0] : Fin 1 → Fin 2))
    (b2 : (⟨0, ![]⟩ : Shape).BroadcastsInDim ⟨2, ![n, 1]⟩ (![] : Fin 0 → Fin 2))
    (b3 : (⟨1, ![1]⟩ : Shape).BroadcastsInDim ⟨2, ![1, 1]⟩ (![1] : Fin 1 → Fin 2))
    (b4 : (⟨2, ![1, 1]⟩ : Shape).BroadcastsInDim ⟨2, ![n, 1]⟩ (![0, 1] : Fin 2 → Fin 2))
    (hr : (⟨2, ![n, 1]⟩ : Shape).ReducesTo [1] ⟨1, ![n]⟩) (hu : 0 < (⟨0, ![]⟩ : Shape).numel)
    (b5 : (⟨1, ![n]⟩ : Shape).BroadcastsInDim ⟨2, ![n, C]⟩ (![0] : Fin 1 → Fin 2))
    (b6 : (⟨0, ![]⟩ : Shape).BroadcastsInDim ⟨2, ![n, C]⟩ (![] : Fin 0 → Fin 2))
    (x : sx.Idx → EReal) (idx : IVec ⟨1, ![n]⟩ 32) : (⟨2, ![n, C]⟩ : Shape).Idx → EReal :=
  select
    (broadcastInDim ⟨2, ![n, C]⟩ ![0] b5
      (Host.reduce IntOp.andi
        (andi (cmpi .sge (normIdx lim b0 b1 idx) (broadcastInDim ⟨2, ![n, 1]⟩ ![] b2 (constantI ⟨0, ![]⟩ 32 0#32)))
          (cmpi .sle (normIdx lim b0 b1 idx)
            (broadcastInDim ⟨2, ![n, 1]⟩ ![0, 1] b4 (broadcastInDim ⟨2, ![1, 1]⟩ ![1] b3 (constantI ⟨1, ![1]⟩ 32 hi)))))
        (constantI ⟨0, ![]⟩ 1 1#1) hr hu))
    (Host.gather d x (normIdx lim b0 b1 idx))
    (broadcastInDim ⟨2, ![n, C]⟩ ![] b6 (constant (F := Ideal) ⟨0, ![]⟩ .f32 fill))

/-- When every index lies in [0, lim) and hi is lim's predecessor, the take with fill is the plain gather at the
    normalised indices: every row passes the range test. -/
theorem fillTake_eq_gather (d : GatherDims sx ⟨2, ![n, 1]⟩ ⟨2, ![n, C]⟩) (lim hi : BitVec 32) (fill : BitVec 32)
    (b0 : (⟨0, ![]⟩ : Shape).BroadcastsInDim ⟨1, ![n]⟩ (![] : Fin 0 → Fin 1))
    (b1 : (⟨1, ![n]⟩ : Shape).BroadcastsInDim ⟨2, ![n, 1]⟩ (![0] : Fin 1 → Fin 2))
    (b2 : (⟨0, ![]⟩ : Shape).BroadcastsInDim ⟨2, ![n, 1]⟩ (![] : Fin 0 → Fin 2))
    (b3 : (⟨1, ![1]⟩ : Shape).BroadcastsInDim ⟨2, ![1, 1]⟩ (![1] : Fin 1 → Fin 2))
    (b4 : (⟨2, ![1, 1]⟩ : Shape).BroadcastsInDim ⟨2, ![n, 1]⟩ (![0, 1] : Fin 2 → Fin 2))
    (hr : (⟨2, ![n, 1]⟩ : Shape).ReducesTo [1] ⟨1, ![n]⟩) (hu : 0 < (⟨0, ![]⟩ : Shape).numel)
    (b5 : (⟨1, ![n]⟩ : Shape).BroadcastsInDim ⟨2, ![n, C]⟩ (![0] : Fin 1 → Fin 2))
    (b6 : (⟨0, ![]⟩ : Shape).BroadcastsInDim ⟨2, ![n, C]⟩ (![] : Fin 0 → Fin 2))
    (x : sx.Idx → EReal) (idx : IVec ⟨1, ![n]⟩ 32) (hl : lim.toInt = hi.toInt + 1)
    (h : ∀ r, IntOp.cmpi .sge (idx r) 0#32 = 1#1 ∧ IntOp.cmpi .slt (idx r) lim = 1#1) :
    fillTake d lim hi fill b0 b1 b2 b3 b4 hr hu b5 b6 x idx = Host.gather d x (normIdx lim b0 b1 idx) := by
  unfold fillTake
  refine select_of_all_one _ _ _ fun i => ?_
  show Host.reduce IntOp.andi _ _ _ _ _ = 1#1
  refine reduce_andi_one _ _ _ _ _ (fun j => ?_) (fun _ => rfl)
  exact range_test _ hi lim hl (h _).1 (h _).2

end Take

end Cert.TakeRows

end
-- ==== Proof.HostArrays.lean ====
/-
  What the kernel's launch finds in the three arrays its host code took.

  Before the launch the kernel's host code takes the source-bond rows, the destination-bond rows and the vertex-atom
  rows. Each take normalises its indices (a negative index counts from the end), tests every normalised index
  against the table's row range, and fills the rows that fail the test. Under the index ranges every row passes, so
  each take is the plain row gather at the normalised indices: the array the reference forms.
-/
import proofs.«419484_j87978110091589_1_alg».proof.Proof.Gen.KernelIdeal.Frame
import proofs.«419484_j87978110091589_1_alg».proof.Proof.Gen.ReferenceIdeal.Read
import proofs.«419484_j87978110091589_1_alg».proof.Proof.TakeRows
import Idealize.ShloMosaic.Lib.StableHlo.Run
import Idealize.ShloMosaic.Lib.ValueIdx
import Idealize.ShloMosaic.Lib.Pipeline.Value

set_option maxRecDepth 16384

noncomputable section

namespace Cert.HostArrays

open Cert.KernelIdeal Cert.KernelIdeal.Gen
open Idealize.ShloMosaic Idealize.ShloMosaic.TcCoe Idealize.SL.Sem Idealize.ShloMosaic.ValueIdx Cert.TakeRows

/-- Contents carried to a buffer's own type and back are the contents. -/
theorem ofBuf_toBuf {T : BufTy} (x : StableHlo.TRef sig T) (v : T.Contents (Elt Ideal)) : x.ofBuf (x.toBuf v) = v := by
  obtain ⟨r, h, _, _⟩ := x
  subst h
  rfl

/-! ## Each take, over any earlier contents -/

section Takes

variable (W : Valuation τ sig (Elt Ideal))

set_option maxHeartbeats 8000000 in
/-- The first take: when every source index lies in [0, 500000), the array it writes is the gather of the bond rows at
    the normalised source indices. -/
theorem take_src
    (h : ∀ r : S1000000.Idx, IntOp.cmpi .sge (W (Proc.devRef .tc main_arg4) r) 0#32 = 1#1
      ∧ IntOp.cmpi .slt (W (Proc.devRef .tc main_arg4) r) 500000#32 = 1#1) :
    StableHlo.after hostOps0 W (Proc.devRef .tc main_v0)
      = Host.gather gather_S500000x64_S1000000x1_S1000000x64_1_0_n_n_0_1_164 (W (Proc.devRef .tc main_arg1))
          (normIdx 500000#32 bcast_S_S1000000 bcast_S1000000_S1000000x1_0 (W (Proc.devRef .tc main_arg4))) := by
  simp only [hostOps0]
  after_results_simp
  simp only [ofBuf_toBuf]
  rw [select_of_all_one]
  · rfl
  · intro i
    exact bcast_of_all_one _ _ _ (fun r => reduce_andi_one _ _ _ _ r
      (fun j => range_test _ 499999#32 500000#32 (by decide) (h _).1 (h _).2) (fun _ => rfl)) i

set_option maxHeartbeats 8000000 in
/-- The second take: when every destination index lies in [0, 500000), the array it writes is the gather of the bond
    rows at the normalised destination indices. -/
theorem take_dst
    (h : ∀ r : S1000000.Idx, IntOp.cmpi .sge (W (Proc.devRef .tc main_arg5) r) 0#32 = 1#1
      ∧ IntOp.cmpi .slt (W (Proc.devRef .tc main_arg5) r) 500000#32 = 1#1) :
    StableHlo.after hostOps0_1 W (Proc.devRef .tc main_v1)
      = Host.gather gather_S500000x64_S1000000x1_S1000000x64_1_0_n_n_0_1_164 (W (Proc.devRef .tc main_arg1))
          (normIdx 500000#32 bcast_S_S1000000 bcast_S1000000_S1000000x1_0 (W (Proc.devRef .tc main_arg5))) := by
  simp only [hostOps0_1]
  after_results_simp
  simp only [ofBuf_toBuf]
  rw [select_of_all_one]
  · rfl
  · intro i
    exact bcast_of_all_one _ _ _ (fun r => reduce_andi_one _ _ _ _ r
      (fun j => range_test _ 499999#32 500000#32 (by decide) (h _).1 (h _).2) (fun _ => rfl)) i

set_option maxHeartbeats 8000000 in
/-- The third take: when every vertex index lies in [0, 100000), the array it writes is the gather of the atom rows at
    the normalised vertex indices. -/
theorem take_vtx
    (h : ∀ r : S1000000.Idx, IntOp.cmpi .sge (W (Proc.devRef .tc main_v3) r) 0#32 = 1#1
      ∧ IntOp.cmpi .slt (W (Proc.devRef .tc main_v3) r) 100000#32 = 1#1) :
    StableHlo.after hostOps0_3 W (Proc.devRef .tc main_v4)
      = Host.gather gather_S100000x64_S1000000x1_S1000000x64_1_0_n_n_0_1_164 (W (Proc.devRef .tc main_arg0))
          (normIdx 100000#32 bcast_S_S1000000 bcast_S1000000_S1000000x1_0 (W (Proc.devRef .tc main_v3))) := by
  simp only [hostOps0_3]
  after_results_simp
  simp only [ofBuf_toBuf]
  rw [select_of_all_one]
  · rfl
  · intro i
    exact bcast_of_all_one _ _ _ (fun r => reduce_andi_one _ _ _ _ r
      (fun j => range_test _ 99999#32 100000#32 (by decide) (h _).1 (h _).2) (fun _ => rfl)) i

/-- The middle column of the angle's atom indices, as a vector: the slice, recast. -/
theorem vertex_idx :
    StableHlo.after hostOps0_2 W (Proc.devRef .tc main_v3)
      = shapeCast S1000000 (extractStridedSlice S1000000x1 ![0, 1] (W (Proc.devRef .tc main_arg3)) slices_S1000000x3_S1000000x1_0_1)
          shapeCasts_S1000000x1_S1000000 := by
  simp only [hostOps0_2]
  after_results_simp
  rfl

end Takes

/-! ## What the launch finds -/

variable (m : (ℓ : Loc nD τ sig) → Buf (Elt Ideal) ℓ)

/-- The arrays at region entry, one stretch of host operations after another. -/
theorem V_split (c : Dev nD) (b : Ref sig .tc) :
    V m c b = StableHlo.after hostOps0_4 (StableHlo.after hostOps0_3 (StableHlo.after hostOps0_2 (StableHlo.after hostOps0_1
      (StableHlo.after hostOps0 (fun b => m (c, b)))))) b := by
  dsimp only [V]
  simp only [List.flatten_cons, List.flatten_nil, List.append_nil, StableHlo.after_append]

/-- No operation of the listed stretch writes the reference: decided reference by reference. -/
local macro "keeps" : tactic => `(tactic| (
  refine List.forall_iff_forall_mem.mp ?_
  simp only [hostOps0, hostOps0_1, hostOps0_2, hostOps0_3, hostOps0_4, List.cons_append, List.nil_append, List.append_nil, List.Forall,
    StableHlo.nullary_writes, StableHlo.unary_writes, StableHlo.binary_writes, StableHlo.ternary_writes, StableHlo.reshape_writes,
    Finset.mem_singleton]
  repeat' apply And.intro
  all_goals exact StableHlo.devRef_ne_of_ne (by decide)))

set_option maxHeartbeats 8000000 in
/-- Under the source index range, the source-bond array at region entry is the reference's gathered array. -/
theorem V_src (c : Dev nD)
    (h : ∀ r : S1000000.Idx, IntOp.cmpi .sge (m ((c : Thread nD τ).loc main_arg4) r) 0#32 = 1#1
      ∧ IntOp.cmpi .slt (m ((c : Thread nD τ).loc main_arg4) r) 500000#32 = 1#1) :
    V m c main_v0 = Cert.ReferenceIdeal.Read.val_main_v6 (F := Ideal) (m ((c : Thread nD τ).loc main_arg1)) (m ((c : Thread nD τ).loc main_arg4)) := by
  rw [V_split]
  rw [StableHlo.after_of_forall_not_mem (b := Proc.devRef .tc main_v0) hostOps0_4 _ (by keeps),
    StableHlo.after_of_forall_not_mem (b := Proc.devRef .tc main_v0) hostOps0_3 _ (by keeps),
    StableHlo.after_of_forall_not_mem (b := Proc.devRef .tc main_v0) hostOps0_2 _ (by keeps),
    StableHlo.after_of_forall_not_mem (b := Proc.devRef .tc main_v0) hostOps0_1 _ (by keeps)]
  rw [take_src _ h]
  rfl

set_option maxHeartbeats 8000000 in
/-- Under the destination index range, the destination-bond array at region entry is the reference's gathered array. -/
theorem V_dst (c : Dev nD)
    (h : ∀ r : S1000000.Idx, IntOp.cmpi .sge (m ((c : Thread nD τ).loc main_arg5) r) 0#32 = 1#1
      ∧ IntOp.cmpi .slt (m ((c : Thread nD τ).loc main_arg5) r) 500000#32 = 1#1) :
    V m c main_v1 = Cert.ReferenceIdeal.Read.val_main_v13 (F := Ideal) (m ((c : Thread nD τ).loc main_arg1)) (m ((c : Thread nD τ).loc main_arg5)) := by
  have k1 : StableHlo.after hostOps0 (fun b => m (c, b)) (Proc.devRef .tc main_arg1) = m (c, Proc.devRef .tc main_arg1) :=
    StableHlo.after_of_forall_not_mem (b := Proc.devRef .tc main_arg1) hostOps0 _ (by keeps)
  have k5 : StableHlo.after hostOps0 (fun b => m (c, b)) (Proc.devRef .tc main_arg5) = m (c, Proc.devRef .tc main_arg5) :=
    StableHlo.after_of_forall_not_mem (b := Proc.devRef .tc main_arg5) hostOps0 _ (by keeps)
  rw [V_split]
  rw [StableHlo.after_of_forall_not_mem (b := Proc.devRef .tc main_v1) hostOps0_4 _ (by keeps),
    StableHlo.after_of_forall_not_mem (b := Proc.devRef .tc main_v1) hostOps0_3 _ (by keeps),
    StableHlo.after_of_forall_not_mem (b := Proc.devRef .tc main_v1) hostOps0_2 _ (by keeps)]
  rw [take_dst _ (by rw [k5]; exact h), k1, k5]
  rfl

set_option maxHeartbeats 8000000 in
/-- Under the vertex index range, the vertex-atom array at region entry is the reference's gathered array. -/
theorem V_vtx (c : Dev nD)
    (h : ∀ r : S1000000.Idx,
      IntOp.cmpi .sge (shapeCast S1000000 (extractStridedSlice S1000000x1 ![0, 1] (m ((c : Thread nD τ).loc main_arg3)) slices_S1000000x3_S1000000x1_0_1)
          shapeCasts_S1000000x1_S1000000 r) 0#32 = 1#1
      ∧ IntOp.cmpi .slt (shapeCast S1000000 (extractStridedSlice S1000000x1 ![0, 1] (m ((c : Thread nD τ).loc main_arg3)) slices_S1000000x3_S1000000x1_0_1)
          shapeCasts_S1000000x1_S1000000 r) 100000#32 = 1#1) :
    V m c main_v4 = Cert.ReferenceIdeal.Read.val_main_v22 (F := Ideal) (m ((c : Thread nD τ).loc main_arg0)) (m ((c : Thread nD τ).loc main_arg3)) := by
  have k3 : StableHlo.after hostOps0_1 (StableHlo.after hostOps0 (fun b => m (c, b))) (Proc.devRef .tc main_arg3) = m (c, Proc.devRef .tc main_arg3) := by
    rw [StableHlo.after_of_forall_not_mem (b := Proc.devRef .tc main_arg3) hostOps0_1 _ (by keeps),
      StableHlo.after_of_forall_not_mem (b := Proc.devRef .tc main_arg3) hostOps0 _ (by keeps)]
  have k0 : StableHlo.after hostOps0_2 (StableHlo.after hostOps0_1 (StableHlo.after hostOps0 (fun b => m (c, b)))) (Proc.devRef .tc main_arg0)
      = m (c, Proc.devRef .tc main_arg0) := by
    rw [StableHlo.after_of_forall_not_mem (b := Proc.devRef .tc main_arg0) hostOps0_2 _ (by keeps),
      StableHlo.after_of_forall_not_mem (b := Proc.devRef .tc main_arg0) hostOps0_1 _ (by keeps),
      StableHlo.after_of_forall_not_mem (b := Proc.devRef .tc main_arg0) hostOps0 _ (by keeps)]
  rw [V_split]
  rw [StableHlo.after_of_forall_not_mem (b := Proc.devRef .tc main_v4) hostOps0_4 _ (by keeps)]
  rw [take_vtx _ (by rw [vertex_idx, k3]; exact h), vertex_idx, k3, k0]
  rfl

end Cert.HostArrays

end
-- ==== Proof.HostParams.lean ====
/-
  What the launch finds in the eight parameter arrays.

  Before the launch the host code copies the four weight matrices into arrays of a narrower float format and lays
  each of the four biases out as a single row. Over the extended reals a change of float format is the identity,
  and an array of n entries recast as one row of n has the same entries in the same order. No host operation
  writes an argument array. So each parameter array the launch reads holds, entry for entry, the argument the
  program was started with.
-/
import proofs.«419484_j87978110091589_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.HostParams

open Cert.KernelIdeal Cert.KernelIdeal.Gen Idealize.ShloMosaic Idealize.ShloMosaic.TcCoe Idealize.SL.Sem Idealize.ShloMosaic.ValueIdx

/-! ## The last stretch of host operations, over any earlier contents

The last stretch before the launch writes eight arrays: four weight matrices, each a change of float format of an
argument (the identity over the extended reals), and four biases, each an argument of n entries laid out as one
row of n. It writes none of the arguments themselves. All of this holds whatever the earlier stretches left. -/

section LastStretch

variable (W : Valuation τ sig (Elt Ideal))

/-- An array of n entries recast as one row of n, read at row 0, column h, is the array at h: both are position h
    in row-major order. -/
theorem row_of_flat {α : Type} {n : Nat} (x : (⟨1, ![n]⟩ : Shape).Idx → α)
    (hc : (⟨1, ![n]⟩ : Shape).ShapeCasts ⟨2, ![1, n]⟩) (h : Fin n) :
    shapeCast ⟨2, ![1, n]⟩ x hc (ix2 (0 : Fin 1) h) = x (ix1 h) :=
  shapeCast_apply x hc _ _ (by
    rw [Shape.rowMajor_val_one, Shape.rowMajor_val_two]
    show h.val = 0 * n + h.val
    omega)

/-- The last stretch writes the gate network's first weight matrix as the argument, entry by entry. -/
theorem last_gW1 (i : S256x128.Idx) :
    StableHlo.after hostOps0_4 W (Proc.devRef .tc main_v5) i = W (Proc.devRef .tc main_arg6) i := by
  simp only [hostOps0_4]
  after_results_simp
  rfl

/-- The last stretch writes the gate network's second weight matrix as the argument, entry by entry. -/
theorem last_gW2 (i : S128x64.Idx) :
    StableHlo.after hostOps0_4 W (Proc.devRef .tc main_v6) i = W (Proc.devRef .tc main_arg8) i := by
  simp only [hostOps0_4]
  after_results_simp
  rfl

/-- The last stretch writes the value network's first weight matrix as the argument, entry by entry. -/
theorem last_oW1 (i : S256x128.Idx) :
    StableHlo.after hostOps0_4 W (Proc.devRef .tc main_v7) i = W (Proc.devRef .tc main_arg10) i := by
  simp only [hostOps0_4]
  after_results_simp
  rfl

/-- The last stretch writes the value network's second weight matrix as the argument, entry by entry. -/
theorem last_oW2 (i : S128x64.Idx) :
    StableHlo.after hostOps0_4 W (Proc.devRef .tc main_v8) i = W (Proc.devRef .tc main_arg12) i := by
  simp only [hostOps0_4]
  after_results_simp
  rfl

/-- The last stretch writes the gate network's first bias as one row: row 0, column h is the argument at h. -/
theorem last_gb1 (h : Fin 128) :
    StableHlo.after hostOps0_4 W (Proc.devRef .tc main_v9) (ix2 (0 : Fin 1) h) = W (Proc.devRef .tc main_arg7) (ix1 h) := by
  simp only [hostOps0_4]
  after_results_simp
  exact row_of_flat _ _ h

/-- The last stretch writes the gate network's second bias as one row: row 0, column h is the argument at h. -/
theorem last_gb2 (h : Fin 64) :
    StableHlo.after hostOps0_4 W (Proc.devRef .tc main_v10) (ix2 (0 : Fin 1) h) = W (Proc.devRef .tc main_arg9) (ix1 h) := by
  simp only [hostOps0_4]
  after_results_simp
  exact row_of_flat _ _ h

/-- The last stretch writes the value network's first bias as one row: row 0, column h is the argument at h. -/
theorem last_ob1 (h : Fin 128) :
    StableHlo.after hostOps0_4 W (Proc.devRef .tc main_v11) (ix2 (0 : Fin 1) h) = W (Proc.devRef .tc main_arg11) (ix1 h) := by
  simp only [hostOps0_4]
  after_results_simp
  exact row_of_flat _ _ h

/-- The last stretch writes the value network's second bias as one row: row 0, column h is the argument at h. -/
theorem last_ob2 (h : Fin 64) :
    StableHlo.after hostOps0_4 W (Proc.devRef .tc main_v12) (ix2 (0 : Fin 1) h) = W (Proc.devRef .tc main_arg13) (ix1 h) := by
  simp only [hostOps0_4]
  after_results_simp
  exact row_of_flat _ _ h

/-- The last stretch does not write main_arg6. -/
theorem last_keeps_main_arg6 :
    StableHlo.after hostOps0_4 W (Proc.devRef .tc main_arg6) = W (Proc.devRef .tc main_arg6) := by
  simp only [hostOps0_4]
  after_results_simp

/-- The last stretch does not write main_arg8. -/
theorem last_keeps_main_arg8 :
    StableHlo.after hostOps0_4 W (Proc.devRef .tc main_arg8) = W (Proc.devRef .tc main_arg8) := by
  simp only [hostOps0_4]
  after_results_simp

/-- The last stretch does not write main_arg10. -/
theorem last_keeps_main_arg10 :
    StableHlo.after hostOps0_4 W (Proc.devRef .tc main_arg10) = W (Proc.devRef .tc main_arg10) := by
  simp only [hostOps0_4]
  after_results_simp

/-- The last stretch does not write main_arg12. -/
theorem last_keeps_main_arg12 :
    StableHlo.after hostOps0_4 W (Proc.devRef .tc main_arg12) = W (Proc.devRef .tc main_arg12) := by
  simp only [hostOps0_4]
  after_results_simp

/-- The last stretch does not write main_arg7. -/
theorem last_keeps_main_arg7 :
    StableHlo.after hostOps0_4 W (Proc.devRef .tc main_arg7) = W (Proc.devRef .tc main_arg7) := by
  simp only [hostOps0_4]
  after_results_simp

/-- The last stretch does not write main_arg9. -/
theorem last_keeps_main_arg9 :
    StableHlo.after hostOps0_4 W (Proc.devRef .tc main_arg9) = W (Proc.devRef .tc main_arg9) := by
  simp only [hostOps0_4]
  after_results_simp

/-- The last stretch does not write main_arg11. -/
theorem last_keeps_main_arg11 :
    StableHlo.after hostOps0_4 W (Proc.devRef .tc main_arg11) = W (Proc.devRef .tc main_arg11) := by
  simp only [hostOps0_4]
  after_results_simp

/-- The last stretch does not write main_arg13. -/
theorem last_keeps_main_arg13 :
    StableHlo.after hostOps0_4 W (Proc.devRef .tc main_arg13) = W (Proc.devRef .tc main_arg13) := by
  simp only [hostOps0_4]
  after_results_simp

end LastStretch

/-! ## What the launch finds -/

variable (m : (ℓ : Loc nD τ sig) → Buf (Elt Ideal) ℓ)

/-- The contents at the launch are the five stretches of host operations applied in turn to the initial memory. -/
theorem V_split (c : Dev nD) (b : Ref sig .tc) :
    V m c b = StableHlo.after hostOps0_4 (StableHlo.after hostOps0_3 (StableHlo.after hostOps0_2 (StableHlo.after hostOps0_1 (StableHlo.after hostOps0 (fun b => m (c, b)))))) b := by
  dsimp only [V]; simp only [List.flatten_cons, List.flatten_nil, List.append_nil, StableHlo.after_append]

/-- At the launch the gate network's first weight matrix is the argument as launched: the last stretch copies what the earlier stretches left
    in main_arg6, which no stretch writes. -/
theorem V_gW1 (c : Dev nD) (i : S256x128.Idx) : V m c main_v5 i = m ((c : Thread nD τ).loc main_arg6) i := by
  have e := V_main_arg6 m c
  rw [V_split] at e ⊢
  rw [last_keeps_main_arg6] at e
  rw [last_gW1, e]

/-- At the launch the gate network's second weight matrix is the argument as launched: the last stretch copies what the earlier stretches left
    in main_arg8, which no stretch writes. -/
theorem V_gW2 (c : Dev nD) (i : S128x64.Idx) : V m c main_v6 i = m ((c : Thread nD τ).loc main_arg8) i := by
  have e := V_main_arg8 m c
  rw [V_split] at e ⊢
  rw [last_keeps_main_arg8] at e
  rw [last_gW2, e]

/-- At the launch the value network's first weight matrix is the argument as launched: the last stretch copies what the earlier stretches left
    in main_arg10, which no stretch writes. -/
theorem V_oW1 (c : Dev nD) (i : S256x128.Idx) : V m c main_v7 i = m ((c : Thread nD τ).loc main_arg10) i := by
  have e := V_main_arg10 m c
  rw [V_split] at e ⊢
  rw [last_keeps_main_arg10] at e
  rw [last_oW1, e]

/-- At the launch the value network's second weight matrix is the argument as launched: the last stretch copies what the earlier stretches left
    in main_arg12, which no stretch writes. -/
theorem V_oW2 (c : Dev nD) (i : S128x64.Idx) : V m c main_v8 i = m ((c : Thread nD τ).loc main_arg12) i := by
  have e := V_main_arg12 m c
  rw [V_split] at e ⊢
  rw [last_keeps_main_arg12] at e
  rw [last_oW2, e]

/-- At the launch the gate network's first bias, one row of 128, holds at column h the argument as launched at h. -/
theorem V_gb1 (c : Dev nD) (h : Fin 128) : V m c main_v9 (ix2 (0 : Fin 1) h) = m ((c : Thread nD τ).loc main_arg7) (ix1 h) := by
  have e := V_main_arg7 m c
  rw [V_split] at e ⊢
  rw [last_keeps_main_arg7] at e
  rw [last_gb1, e]

/-- At the launch the gate network's second bias, one row of 64, holds at column h the argument as launched at h. -/
theorem V_gb2 (c : Dev nD) (h : Fin 64) : V m c main_v10 (ix2 (0 : Fin 1) h) = m ((c : Thread nD τ).loc main_arg9) (ix1 h) := by
  have e := V_main_arg9 m c
  rw [V_split] at e ⊢
  rw [last_keeps_main_arg9] at e
  rw [last_gb2, e]

/-- At the launch the value network's first bias, one row of 128, holds at column h the argument as launched at h. -/
theorem V_ob1 (c : Dev nD) (h : Fin 128) : V m c main_v11 (ix2 (0 : Fin 1) h) = m ((c : Thread nD τ).loc main_arg11) (ix1 h) := by
  have e := V_main_arg11 m c
  rw [V_split] at e ⊢
  rw [last_keeps_main_arg11] at e
  rw [last_ob1, e]

/-- At the launch the value network's second bias, one row of 64, holds at column h the argument as launched at h. -/
theorem V_ob2 (c : Dev nD) (h : Fin 64) : V m c main_v12 (ix2 (0 : Fin 1) h) = m ((c : Thread nD τ).loc main_arg13) (ix1 h) := by
  have e := V_main_arg13 m c
  rw [V_split] at e ⊢
  rw [last_keeps_main_arg13] at e
  rw [last_ob2, e]

end Cert.HostParams

end
-- ==== Proof.RefRow.lean ====
/-
  The reference program, read one element at a time, is the angle update of the specification.

  The reference gathers three arrays of rows (source bonds, destination bonds, vertex atoms), lays them beside the
  angle features into rows of 256 entries, and sends every row through two small networks: an affine map to 128
  hidden units, a cut at zero, an affine map to 64 outputs. It spells the logistic function out as
  1 / (1 + exp (-x)) with the float word of 1.0 for both ones. Reading its last stage at row r, column j and
  following the stages back to the concatenated row gives, term for term, the expression the specification
  writes for that element: each matrix product is the finite sum over its contracted coordinate, each bias
  arrives through two broadcasts at its own coordinate, the word of 1.0 denotes 1, and a concatenation of four
  blocks of 64 columns reads block k / 64 at column k % 64.
-/
import proofs.«419484_j87978110091589_1_alg».proof.Proof.Spec
import proofs.«419484_j87978110091589_1_alg».proof.Proof.Gen.ReferenceIdeal.Read
import Idealize.ShloMosaic.PureOps.IdealRules

noncomputable section

open scoped BigOperators

namespace Cert.RefRow

open Idealize.ShloMosaic Idealize.ShloMosaic.ValueIdx Cert.ReferenceIdeal Cert.ReferenceIdeal.Gen Cert.ReferenceIdeal.Read Cert.AngleSpec

/-! ## Four blocks of 64 columns side by side -/

/-- A concatenation of four [1000000, 64] arrays along the columns, read at row r, column k: the block that holds
    column k, at k less the columns before that block. -/
theorem concat4_apply {α : Type} (S D A Vx : S1000000x64.Idx → α)
    (hc : Shape.Concatenates [S1000000x64, S1000000x64, S1000000x64, S1000000x64] S1000000x256 1)
    (r : Fin 1000000) (k : Fin 256) :
    concatenate S1000000x256 1 [⟨S1000000x64, S⟩, ⟨S1000000x64, D⟩, ⟨S1000000x64, A⟩, ⟨S1000000x64, Vx⟩] hc (ix2 r k)
      = if h1 : k.val < 64 then S (ix2 r ⟨k.val, h1⟩)
        else if h2 : k.val < 128 then D (ix2 r ⟨k.val - 64, by omega⟩)
        else if h3 : k.val < 192 then A (ix2 r ⟨k.val - 128, by omega⟩)
        else Vx (ix2 r ⟨k.val - 192, by omega⟩) := by
  have hk := k.isLt
  -- off the joined axis (the rows) a block's index and the whole array's index agree
  have hoff : ∀ (q : Fin 64) (b : Fin S1000000x64.rank), b.cast (rfl : S1000000x64.rank = S1000000x256.rank) ≠ (1 : Fin S1000000x256.rank) →
      ((ix2 r q : S1000000x64.Idx) b).val = ((ix2 r k : S1000000x256.Idx) (b.cast rfl)).val := fun q b hb => by
    match b with
    | ⟨0, _⟩ => rfl
    | ⟨1, _⟩ => exact absurd rfl hb
  split_ifs with h1 h2 h3
  · exact concatenate_apply_piece (t := S1000000x256) 1
      [⟨S1000000x64, S⟩, ⟨S1000000x64, D⟩, ⟨S1000000x64, A⟩, ⟨S1000000x64, Vx⟩] hc (ix2 r k) 0 (Nat.zero_lt_succ _)
      S1000000x64 S rfl rfl 0 rfl (ix2 r ⟨k.val, h1⟩) (hoff _) (by show 0 + k.val = k.val; omega)
  · exact concatenate_apply_piece (t := S1000000x256) 1
      [⟨S1000000x64, S⟩, ⟨S1000000x64, D⟩, ⟨S1000000x64, A⟩, ⟨S1000000x64, Vx⟩] hc (ix2 r k) 1 (by show 1 < 4; omega)
      S1000000x64 D rfl rfl 64 rfl (ix2 r ⟨k.val - 64, by omega⟩) (hoff _) (by show 64 + (k.val - 64) = k.val; omega)
  · exact concatenate_apply_piece (t := S1000000x256) 1
      [⟨S1000000x64, S⟩, ⟨S1000000x64, D⟩, ⟨S1000000x64, A⟩, ⟨S1000000x64, Vx⟩] hc (ix2 r k) 2 (by show 2 < 4; omega)
      S1000000x64 A rfl rfl 128 rfl (ix2 r ⟨k.val - 128, by omega⟩) (hoff _) (by show 128 + (k.val - 128) = k.val; omega)
  · exact concatenate_apply_piece (t := S1000000x256) 1
      [⟨S1000000x64, S⟩, ⟨S1000000x64, D⟩, ⟨S1000000x64, A⟩, ⟨S1000000x64, Vx⟩] hc (ix2 r k) 3 (by show 3 < 4; omega)
      S1000000x64 Vx rfl rfl 192 rfl (ix2 r ⟨k.val - 192, by omega⟩) (hoff _) (by show 192 + (k.val - 192) = k.val; omega)

/-- Row r of the reference's concatenated array is the specification's feature row of the three gathered arrays
    and the angle features. -/
theorem featureRow_apply (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (r : Fin 1000000) (k : Fin 256) :
    val_main_v23 (F := Ideal) x0 x1 x2 x3 x4 x5 (ix2 r k)
      = catRow (fun q => val_main_v6 (F := Ideal) x1 x4 (ix2 r q)) (fun q => val_main_v13 (F := Ideal) x1 x5 (ix2 r q))
          (fun q => x2 (ix2 r q)) (fun q => val_main_v22 (F := Ideal) x0 x3 (ix2 r q)) k := by
  unfold val_main_v23 catRow
  exact concat4_apply _ _ _ _ _ r k

/-! ## One layer at an element -/

/-- The first layer at row r, unit h: the sum over the 256 features of row r against column h of the weights, the
    bias at h (it arrives through two broadcasts), cut at the zero word. Stated for any feature array. -/
theorem hidden_of (y : S1000000x256.Idx → EReal) (W : S256x128.Idx → EReal) (b : S128.Idx → EReal)
    (r : Fin 1000000) (h : Fin 128) :
    max ((∑ k : Fin 256, y (lidx_main_v24 (ix2 r h) k) * W (ridx_main_v24 (ix2 r h) k))
          + b (idx_main_v25 (idx_main_v26 (ix2 r h)))) (Ideal.ofBits .f32 0x00000000#32)
      = AngleSpec.hidden (fun k => y (ix2 r k)) (fun k h => W (ix2 k h)) (fun h => b (ix1 h)) h := by
  unfold AngleSpec.hidden
  refine congrArg₂ max (congrArg₂ (· + ·) (Finset.sum_congr rfl fun k _ => ?_) ?_) rfl
  · have el : lidx_main_v24 (ix2 r h) k = ix2 r k := by
      funext a; match a with | ⟨0, _⟩ => rfl | ⟨1, _⟩ => rfl
    have er : ridx_main_v24 (ix2 r h) k = ix2 k h := by
      funext a; match a with | ⟨0, _⟩ => rfl | ⟨1, _⟩ => rfl
    rw [el, er]
  · exact congrArg b (by funext a; match a with | ⟨0, _⟩ => rfl)

/-- The second layer at row r, output j: the sum over the 128 hidden units of row r against column j of the
    weights, and the bias at j. Stated for any array of hidden units. -/
theorem affine2_of (z : S1000000x128.Idx → EReal) (W : S128x64.Idx → EReal) (b : S64.Idx → EReal)
    (r : Fin 1000000) (j : Fin 64) :
    (∑ h : Fin 128, z (lidx_main_v29 (ix2 r j) h) * W (ridx_main_v29 (ix2 r j) h))
          + b (idx_main_v30 (idx_main_v31 (ix2 r j)))
      = (∑ h : Fin 128, z (ix2 r h) * W (ix2 h j)) + b (ix1 j) := by
  refine congrArg₂ (· + ·) (Finset.sum_congr rfl fun h _ => ?_) ?_
  · have el : lidx_main_v29 (ix2 r j) h = ix2 r h := by
      funext a; match a with | ⟨0, _⟩ => rfl | ⟨1, _⟩ => rfl
    have er : ridx_main_v29 (ix2 r j) h = ix2 h j := by
      funext a; match a with | ⟨0, _⟩ => rfl | ⟨1, _⟩ => rfl
    rw [el, er]
  · exact congrArg b (by funext a; match a with | ⟨0, _⟩ => rfl)

/-! ## The two networks -/

/-- The gate network's hidden units. -/
theorem hidden_g (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x6 : (⟨S256x128, .f32⟩ : BufTy).Contents (Elt Ideal))
    (x7 : (⟨S128, .f32⟩ : BufTy).Contents (Elt Ideal)) (r : Fin 1000000) (h : Fin 128) :
    val_main_v28 (F := Ideal) x0 x1 x2 x3 x4 x5 x6 x7 (ix2 r h)
      = AngleSpec.hidden (fun k => val_main_v23 (F := Ideal) x0 x1 x2 x3 x4 x5 (ix2 r k)) (fun k h => x6 (ix2 k h)) (fun h => x7 (ix1 h)) h := by
  rw [val_main_v28_apply, val_main_v27_apply, val_main_v24_apply, val_main_v26_apply, val_main_v25_apply,
    val_main_call0_v0_apply, val_main_call0_cst_apply]
  exact hidden_of _ x6 x7 r h

/-- The gate network's outputs. -/
theorem logit_g (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x6 : (⟨S256x128, .f32⟩ : BufTy).Contents (Elt Ideal))
    (x7 : (⟨S128, .f32⟩ : BufTy).Contents (Elt Ideal)) (x8 : (⟨S128x64, .f32⟩ : BufTy).Contents (Elt Ideal))
    (x9 : (⟨S64, .f32⟩ : BufTy).Contents (Elt Ideal)) (r : Fin 1000000) (j : Fin 64) :
    val_main_v32 (F := Ideal) x0 x1 x2 x3 x4 x5 x6 x7 x8 x9 (ix2 r j)
      = logit (fun k => val_main_v23 (F := Ideal) x0 x1 x2 x3 x4 x5 (ix2 r k)) (fun k h => x6 (ix2 k h)) (fun h => x7 (ix1 h)) (fun h q => x8 (ix2 h q)) (fun q => x9 (ix1 q)) j := by
  rw [val_main_v32_apply, val_main_v29_apply, val_main_v31_apply, val_main_v30_apply]
  unfold logit
  refine (affine2_of _ x8 x9 r j).trans ?_
  refine congrArg₂ (· + ·) (Finset.sum_congr rfl fun h _ => ?_) rfl
  rw [hidden_g]

/-- The value network's hidden units. -/
theorem hidden_o (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x10 : (⟨S256x128, .f32⟩ : BufTy).Contents (Elt Ideal))
    (x11 : (⟨S128, .f32⟩ : BufTy).Contents (Elt Ideal)) (r : Fin 1000000) (h : Fin 128) :
    val_main_v43 (F := Ideal) x0 x1 x2 x3 x4 x5 x10 x11 (ix2 r h)
      = AngleSpec.hidden (fun k => val_main_v23 (F := Ideal) x0 x1 x2 x3 x4 x5 (ix2 r k)) (fun k h => x10 (ix2 k h)) (fun h => x11 (ix1 h)) h := by
  rw [val_main_v43_apply, val_main_v42_apply, val_main_v39_apply, val_main_v41_apply, val_main_v40_apply,
    val_main_call1_v0_apply, val_main_call1_cst_apply]
  exact hidden_of _ x10 x11 r h

/-- The value network's outputs. -/
theorem logit_o (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x10 : (⟨S256x128, .f32⟩ : BufTy).Contents (Elt Ideal))
    (x11 : (⟨S128, .f32⟩ : BufTy).Contents (Elt Ideal)) (x12 : (⟨S128x64, .f32⟩ : BufTy).Contents (Elt Ideal))
    (x13 : (⟨S64, .f32⟩ : BufTy).Contents (Elt Ideal)) (r : Fin 1000000) (j : Fin 64) :
    val_main_v47 (F := Ideal) x0 x1 x2 x3 x4 x5 x10 x11 x12 x13 (ix2 r j)
      = logit (fun k => val_main_v23 (F := Ideal) x0 x1 x2 x3 x4 x5 (ix2 r k)) (fun k h => x10 (ix2 k h)) (fun h => x11 (ix1 h)) (fun h q => x12 (ix2 h q)) (fun q => x13 (ix1 q)) j := by
  rw [val_main_v47_apply, val_main_v44_apply, val_main_v46_apply, val_main_v45_apply]
  unfold logit
  refine (affine2_of _ x12 x13 r j).trans ?_
  refine congrArg₂ (· + ·) (Finset.sum_congr rfl fun h _ => ?_) rfl
  rw [hidden_o]

/-! ## The logistic function, spelled out -/

/-- The float word 0x3F800000 denotes 1. -/
theorem one_word : Ideal.ofBits .f32 0x3F800000#32 = (1 : EReal) := IdealRules.sign_bit.ideal_onePat .f32

/-- 1 / (1 + exp (-x)), with the word of 1.0 for both ones, is the logistic function. -/
theorem logistic_spelled (x : EReal) :
    Ideal.div (Ideal.ofBits .f32 0x3F800000#32) (Ideal.ofBits .f32 0x3F800000#32 + Ideal.exp (-x)) = Ideal.logistic x := by
  rw [one_word]; rfl

/-- The gate: the logistic function of the gate network's output. -/
theorem gate_apply (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x6 : (⟨S256x128, .f32⟩ : BufTy).Contents (Elt Ideal))
    (x7 : (⟨S128, .f32⟩ : BufTy).Contents (Elt Ideal)) (x8 : (⟨S128x64, .f32⟩ : BufTy).Contents (Elt Ideal))
    (x9 : (⟨S64, .f32⟩ : BufTy).Contents (Elt Ideal)) (r : Fin 1000000) (j : Fin 64) :
    val_main_v38 (F := Ideal) x0 x1 x2 x3 x4 x5 x6 x7 x8 x9 (ix2 r j)
      = Ideal.logistic (val_main_v32 (F := Ideal) x0 x1 x2 x3 x4 x5 x6 x7 x8 x9 (ix2 r j)) := by
  rw [val_main_v38_apply, val_main_v37_apply, val_main_cst_5_apply, val_main_v36_apply, val_main_v35_apply,
    val_main_cst_apply, val_main_v34_apply, val_main_v33_apply]
  exact logistic_spelled _

/-- The value: the value network's output times its own logistic value. -/
theorem value_apply (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x10 : (⟨S256x128, .f32⟩ : BufTy).Contents (Elt Ideal))
    (x11 : (⟨S128, .f32⟩ : BufTy).Contents (Elt Ideal)) (x12 : (⟨S128x64, .f32⟩ : BufTy).Contents (Elt Ideal))
    (x13 : (⟨S64, .f32⟩ : BufTy).Contents (Elt Ideal)) (r : Fin 1000000) (j : Fin 64) :
    val_main_v48 (F := Ideal) x0 x1 x2 x3 x4 x5 x10 x11 x12 x13 (ix2 r j)
      = val_main_v47 (F := Ideal) x0 x1 x2 x3 x4 x5 x10 x11 x12 x13 (ix2 r j)
          * Ideal.logistic (val_main_v47 (F := Ideal) x0 x1 x2 x3 x4 x5 x10 x11 x12 x13 (ix2 r j)) := by
  rw [val_main_v48_apply, val_main_call2_v5_apply, val_main_call2_v4_apply, val_main_call2_cst_0_apply,
    val_main_call2_v3_apply, val_main_call2_v2_apply, val_main_call2_cst_apply, val_main_call2_v1_apply,
    val_main_call2_v0_apply]
  exact congrArg (fun t => val_main_v47 (F := Ideal) x0 x1 x2 x3 x4 x5 x10 x11 x12 x13 (ix2 r j) * t) (logistic_spelled _)

/-! ## The reference is the specification -/

/-- The reference's result, as a whole array, is `updated` of the three gathered arrays, the angle features and the
    eight parameter arrays. -/
theorem ref_eq_updated (x0 : (⟨S100000x64, .f32⟩ : BufTy).Contents (Elt Ideal)) (x1 : (⟨S500000x64, .f32⟩ : BufTy).Contents (Elt Ideal))
    (x2 : (⟨S1000000x64, .f32⟩ : BufTy).Contents (Elt Ideal)) (x3 : (⟨S1000000x3, .i32⟩ : BufTy).Contents (Elt Ideal))
    (x4 x5 : (⟨S1000000, .i32⟩ : BufTy).Contents (Elt Ideal)) (x6 : (⟨S256x128, .f32⟩ : BufTy).Contents (Elt Ideal))
    (x7 : (⟨S128, .f32⟩ : BufTy).Contents (Elt Ideal)) (x8 : (⟨S128x64, .f32⟩ : BufTy).Contents (Elt Ideal))
    (x9 : (⟨S64, .f32⟩ : BufTy).Contents (Elt Ideal))
    (x10 : (⟨S256x128, .f32⟩ : BufTy).Contents (Elt Ideal))
    (x11 : (⟨S128, .f32⟩ : BufTy).Contents (Elt Ideal)) (x12 : (⟨S128x64, .f32⟩ : BufTy).Contents (Elt Ideal))
    (x13 : (⟨S64, .f32⟩ : BufTy).Contents (Elt Ideal)) :
    val_main_v50 (F := Ideal) x0 x1 x2 x3 x4 x5 x6 x7 x8 x9 x10 x11 x12 x13
      = updated (val_main_v6 (F := Ideal) x1 x4) (val_main_v13 (F := Ideal) x1 x5) x2 (val_main_v22 (F := Ideal) x0 x3)
          x6 x7 x8 x9 x10 x11 x12 x13 := by
  funext i
  obtain ⟨r, j, rfl⟩ : ∃ (r : Fin 1000000) (j : Fin 64), i = ix2 r j := ⟨i 0, i 1, eq_ix2 i⟩
  have hx : (fun k => val_main_v23 (F := Ideal) x0 x1 x2 x3 x4 x5 (ix2 r k))
      = catRow (fun q => val_main_v6 (F := Ideal) x1 x4 (ix2 r q)) (fun q => val_main_v13 (F := Ideal) x1 x5 (ix2 r q))
          (fun q => x2 (ix2 r q)) (fun q => val_main_v22 (F := Ideal) x0 x3 (ix2 r q)) :=
    funext fun k => featureRow_apply x0 x1 x2 x3 x4 x5 r k
  rw [updated_apply]
  unfold rowOut
  rw [val_main_v50_apply, val_main_v49_apply, value_apply, gate_apply, logit_g, logit_o, hx]
  rfl

end Cert.RefRow

end
-- ==== Proof.PreRange.lean ====
/-
  What the precondition says of the three index arrays.

  The precondition is one bit: the conjunction, by 'and', of fourteen bits, each an 'and' over every entry of an
  array of bits. Its last three say, row by row, that an edge or vertex index is at least 0 and below the number
  of rows of the table it points into. A conjunction that is 1 has every conjunct 1, and an 'and' over all entries
  that is 1 has every entry 1; so each row's two comparisons hold.
-/
import proofs.«419484_j87978110091589_1_alg».proof.Defs
import proofs.«419484_j87978110091589_1_alg».proof.Proof.Gen.Pre_finite_inputs
import Idealize.ShloMosaic.Lib.ReduceAll
import Idealize.ShloMosaic.Lib.ValueIdx

noncomputable section

namespace Cert.PreRange

open Idealize.ShloMosaic Idealize.ShloMosaic.TcCoe Idealize.SL.Sem Idealize.ShloMosaic.ValueIdx

/-- The scalar shape has one index. -/
instance subsingleton_scalarIdx : Subsingleton Cert.Pre_finite_inputs.S_.Idx := ⟨fun a b => funext fun d => d.elim0⟩

section RangeCheck

open Cert.Pre_finite_inputs Cert.Pre_finite_inputs.Facts

/-- A range check under an 'and' over all rows: if the 'and' over every row r of (lo ≤ x r) and (x r < hi), signed,
    against the two constants broadcast to all rows, is 1, then both comparisons hold at every row. -/
theorem range_of_all [Cert.Pre_finite_inputs.Facts] (x : IVec S1000000 32) (lo hi : BitVec 32) (j : S_.Idx)
    (e : Host.reduce IntOp.andi
          (andi (cmpi .sge x (broadcastInDim S1000000 ![] bcast_S_S1000000 (constantI S_ 32 lo)))
                (cmpi .slt x (broadcastInDim S1000000 ![] bcast_S_S1000000 (constantI S_ 32 hi))))
          (constantI S_ 1 1#1) reducesTo_S1000000_S_d0 h_S_ j = 1#1) (r : S1000000.Idx) :
    IntOp.cmpi .sge (x r) lo = 1#1 ∧ IntOp.cmpi .slt (x r) hi = 1#1 := by
  have er := Host.reduce_andi_all _ _ _ _ j e r
  exact IntOp.andi_eq_one.1 er

end RangeCheck

open Cert.KernelIdeal

/-- Under the precondition, on every device: every entry of the two edge-index arrays is at least 0 and below 500000,
    and every entry of the middle column of the angle-index array (read as a flat array of 1000000 words) is at least 0
    and below 100000, all as signed comparisons. -/
theorem ranges_of_pre [hP : Cert.Pre_finite_inputs.Facts] (m : (ℓ : Loc nD τ sig) → Buf (Elt Ideal) ℓ) (h : Cert.Pre_KernelIdeal m) (c : Dev nD) :
    (∀ r : S1000000.Idx, IntOp.cmpi .sge (m ((c : Thread nD τ).loc main_arg4) r) 0#32 = 1#1 ∧ IntOp.cmpi .slt (m ((c : Thread nD τ).loc main_arg4) r) 500000#32 = 1#1)
    ∧ (∀ r : S1000000.Idx, IntOp.cmpi .sge (m ((c : Thread nD τ).loc main_arg5) r) 0#32 = 1#1 ∧ IntOp.cmpi .slt (m ((c : Thread nD τ).loc main_arg5) r) 500000#32 = 1#1)
    ∧ (∀ r : S1000000.Idx, IntOp.cmpi .sge (shapeCast S1000000 (extractStridedSlice S1000000x1 ![0, 1] (m ((c : Thread nD τ).loc main_arg3)) Cert.Pre_finite_inputs.Facts.slices_S1000000x3_S1000000x1_0_1) Cert.Pre_finite_inputs.Facts.shapeCasts_S1000000x1_S1000000 r) 0#32 = 1#1
        ∧ IntOp.cmpi .slt (shapeCast S1000000 (extractStridedSlice S1000000x1 ![0, 1] (m ((c : Thread nD τ).loc main_arg3)) Cert.Pre_finite_inputs.Facts.slices_S1000000x3_S1000000x1_0_1) Cert.Pre_finite_inputs.Facts.shapeCasts_S1000000x1_S1000000 r) 100000#32 = 1#1) := by
  have e := congrFun (h c) ix0
  change IntOp.andi (IntOp.andi (IntOp.andi _ _) _) _ = 1#1 at e
  obtain ⟨e, e3⟩ := IntOp.andi_eq_one.1 e
  obtain ⟨e, e2⟩ := IntOp.andi_eq_one.1 e
  obtain ⟨_, e1⟩ := IntOp.andi_eq_one.1 e
  refine ⟨fun r => ?_, fun r => ?_, fun r => ?_⟩
  · exact range_of_all (m ((c : Thread nD τ).loc main_arg4)) 0#32 500000#32 ix0 e1 r
  · exact range_of_all (m ((c : Thread nD τ).loc main_arg5)) 0#32 500000#32 ix0 e2 r
  · exact range_of_all _ 0#32 100000#32 ix0 e3 r

end Cert.PreRange

end
-- ==== Proof.Bridge.lean ====
/-
  The kernel's result array, as the reference's term of the kernel's own arguments.

  The kernel's result array is the specification's updated array of what the launch finds in the arrays the host code
  wrote; under the precondition's index ranges the three taken arrays are the reference's gathered arrays, the
  parameter arrays are the arguments, and the reference's last stage is the same specification of the same arrays.
-/
import proofs.«419484_j87978110091589_1_alg».proof.Defs
import proofs.«419484_j87978110091589_1_alg».proof.Proof.Gen.KernelIdeal.Value
import proofs.«419484_j87978110091589_1_alg».proof.Proof.Gen.ReferenceIdeal.Read
import proofs.«419484_j87978110091589_1_alg».proof.Proof.Gen.Pre_finite_inputs
import proofs.«419484_j87978110091589_1_alg».proof.Proof.Blocks
import proofs.«419484_j87978110091589_1_alg».proof.Proof.HostArrays
import proofs.«419484_j87978110091589_1_alg».proof.Proof.HostParams
import proofs.«419484_j87978110091589_1_alg».proof.Proof.RefRow
import proofs.«419484_j87978110091589_1_alg».proof.Proof.PreRange

set_option maxRecDepth 16384

noncomputable section

namespace Cert.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- A one-row bias read along its row is the bias vector itself. -/
theorem bias_row {n : Nat} (row : (⟨2, ![1, n]⟩ : Shape).Idx → EReal) (b : (⟨1, ![n]⟩ : Shape).Idx → EReal)
    (hb : ∀ h : Fin n, row (ix2 (0 : Fin 1) h) = b (ix1 h)) :
    (fun i : (⟨1, ![n]⟩ : Shape).Idx => row (ix2 (0 : Fin 1) (i 0))) = b := by
  funext i
  rw [hb (i 0)]
  exact congrArg b (eq_ix1 i).symm

/-- The updated array depends only on its twelve arrays: equal arrays give equal updates. -/
theorem updated_congr
    {S S' D D' A A' Vx Vx' : (⟨2, ![1000000, 64]⟩ : Shape).Idx → EReal}
    {gW1 gW1' oW1 oW1' : (⟨2, ![256, 128]⟩ : Shape).Idx → EReal} {gb1 gb1' ob1 ob1' : (⟨1, ![128]⟩ : Shape).Idx → EReal}
    {gW2 gW2' oW2 oW2' : (⟨2, ![128, 64]⟩ : Shape).Idx → EReal} {gb2 gb2' ob2 ob2' : (⟨1, ![64]⟩ : Shape).Idx → EReal}
    (hS : S = S') (hD : D = D') (hA : A = A') (hV : Vx = Vx')
    (h1 : gW1 = gW1') (h2 : gb1 = gb1') (h3 : gW2 = gW2') (h4 : gb2 = gb2')
    (h5 : oW1 = oW1') (h6 : ob1 = ob1') (h7 : oW2 = oW2') (h8 : ob2 = ob2') :
    Cert.AngleSpec.updated S D A Vx gW1 gb1 gW2 gb2 oW1 ob1 oW2 ob2
      = Cert.AngleSpec.updated S' D' A' Vx' gW1' gb1' gW2' gb2' oW1' ob1' oW2' ob2' := by
  subst hS hD hA hV h1 h2 h3 h4 h5 h6 h7 h8
  rfl

/-- Under the precondition the kernel's result array, on every device, is the reference's last stage read at the
    kernel's own argument arrays: both are the updated array, of arrays that are equal one by one. -/
theorem kernel_result (h : Cert.Pre_KernelIdeal m) (c : Dev nD) :
    (dats m 0 c).arrAt 12 cfg0.N
      = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨h4, h5, h3⟩ := Cert.PreRange.ranges_of_pre m h c
  have e5 : (V m c main_v5 : S256x128.Idx → EReal) = m ((c : Thread nD τ).loc main_arg6) := funext (Cert.HostParams.V_gW1 m c)
  have e6 : (V m c main_v6 : S128x64.Idx → EReal) = m ((c : Thread nD τ).loc main_arg8) := funext (Cert.HostParams.V_gW2 m c)
  have e7 : (V m c main_v7 : S256x128.Idx → EReal) = m ((c : Thread nD τ).loc main_arg10) := funext (Cert.HostParams.V_oW1 m c)
  have e8 : (V m c main_v8 : S128x64.Idx → EReal) = m ((c : Thread nD τ).loc main_arg12) := funext (Cert.HostParams.V_oW2 m c)
  have e9 := bias_row (V m c main_v9) (m ((c : Thread nD τ).loc main_arg7)) (Cert.HostParams.V_gb1 m c)
  have e10 := bias_row (V m c main_v10) (m ((c : Thread nD τ).loc main_arg9)) (Cert.HostParams.V_gb2 m c)
  have e11 := bias_row (V m c main_v11) (m ((c : Thread nD τ).loc main_arg11)) (Cert.HostParams.V_ob1 m c)
  have e12 := bias_row (V m c main_v12) (m ((c : Thread nD τ).loc main_arg13)) (Cert.HostParams.V_ob2 m c)
  refine (Cert.Blocks.final m c).trans ?_
  refine Eq.trans ?_ (Cert.RefRow.ref_eq_updated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm
  exact updated_congr (Cert.HostArrays.V_src m c h4) (Cert.HostArrays.V_dst m c h5) (V_main_arg2 m c)
    (Cert.HostArrays.V_vtx m c h3) e5 e9 e6 e10 e7 e11 e8 e12

end Cert.Bridge

end
-- ==== Proof.lean ====
/-
  The angle update: a kernel that forms the gated two-network update 8000 rows at a time, against the reference that
  forms it for all 1000000 rows at once.

  Both programs gather three arrays of rows (source bonds, destination bonds, vertex atoms), lay them beside the
  angle features into rows of 256 entries, and send every row through two small networks (an affine map to 128 hidden
  units, a cut at zero, an affine map to 64 outputs); the updated feature is a + (o · logistic o) · logistic g.
  Over the extended reals a change of float format is the identity and a finite sum does not depend on how its terms
  are grouped, so the kernel's sixteen-bit operands, its row tiles and its matrix unit state the same numbers as the
  reference's whole-array products.

  The one difference lies in the gathers. The kernel's host code takes rows with a fill for indices out of range;
  the reference's indexing clamps them. The statement therefore carries, beside the finiteness of the float inputs,
  the index ranges 0 ≤ edge_src, edge_dst < 500000 and 0 ≤ angle_index[:, 1] < 100000, outside which the reference
  itself indexes out of range; inside them every row passes the take's range test and both programs gather the same
  rows. No step of the argument needs the finiteness of the float inputs.

  The modules: Spec (the mathematics), KernelBlock (one stored block at an element), Blocks (from blocks to the
  array), TakeRows and HostArrays (the takes under the ranges), HostParams (the parameter arrays), RefRow (the
  reference at an element), PreRange (the ranges read off the precondition), Bridge (the kernel's array as the
  reference's term).
-/
import proofs.«419484_j87978110091589_1_alg».proof.Defs
import proofs.«419484_j87978110091589_1_alg».proof.Proof.Gen.Kernel
import proofs.«419484_j87978110091589_1_alg».proof.Proof.Gen.Kernel.Skeleton
import proofs.«419484_j87978110091589_1_alg».proof.Proof.Gen.Kernel.Launch
import proofs.«419484_j87978110091589_1_alg».proof.Proof.Gen.Kernel.Points
import proofs.«419484_j87978110091589_1_alg».proof.Proof.Gen.Kernel.Frame
import proofs.«419484_j87978110091589_1_alg».proof.Proof.Gen.KernelIdeal
import proofs.«419484_j87978110091589_1_alg».proof.Proof.Gen.KernelIdeal.Skeleton
import proofs.«419484_j87978110091589_1_alg».proof.Proof.Gen.KernelIdeal.Launch
import proofs.«419484_j87978110091589_1_alg».proof.Proof.Gen.KernelIdeal.Points
import proofs.«419484_j87978110091589_1_alg».proof.Proof.Gen.KernelIdeal.Frame
import proofs.«419484_j87978110091589_1_alg».proof.Proof.Gen.ReferenceIdeal
import proofs.«419484_j87978110091589_1_alg».proof.Proof.Gen.Pre_finite_inputs
import proofs.«419484_j87978110091589_1_alg».proof.Proof.Gen.KernelIdeal.Value
import proofs.«419484_j87978110091589_1_alg».proof.Proof.Gen.ReferenceIdeal.Run
import proofs.«419484_j87978110091589_1_alg».proof.Proof.Gen.ReferenceIdeal.Read
import proofs.«419484_j87978110091589_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage read at the kernel's arguments: the kernel by the bridge, the
    reference by its run, the two memories agreeing on the arguments. -/
theorem algebraic : Cert.algebraic_KernelIdeal_ReferenceIdeal := by
  intro m ρ m' ρ' hpre hagree
  refine ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Bridge.kernel_result m hpre c), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13⟩ := hagree c
    rw [(h c).1, Cert.ReferenceIdeal.Read.val_main_v50_eq, a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
